-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S32000x2048 : Shape := ⟨2, ![32000, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2048 .f32) (main_arg1 : FVec F S32000x2048 .f32) (main_arg2 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 32000#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x2048 : Shape := ⟨2, ![4096, 2048]⟩
abbrev S32000x2048 : Shape := ⟨2, ![32000, 2048]⟩
abbrev S4096 : Shape := ⟨1, ![4096]⟩
abbrev S4096x1 : Shape := ⟨2, ![4096, 1]⟩
abbrev S1024x2048 : Shape := ⟨2, ![1024, 2048]⟩
abbrev S1280x2048 : Shape := ⟨2, ![1280, 2048]⟩
abbrev S1024x1 : Shape := ⟨2, ![1024, 1]⟩
abbrev S1024x1280 : Shape := ⟨2, ![1024, 1280]⟩
abbrev S1024 : Shape := ⟨1, ![1024]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S32000x2048, .f32⟩
  | .hbm, ⟨2, _⟩ => ⟨S4096, .i32⟩
  | .hbm, ⟨3, _⟩ => ⟨S4096x1, .i32⟩
  | .hbm, ⟨4, _⟩ => ⟨S4096x1, .f32⟩
  | .hbm, ⟨5, _⟩ => ⟨S_, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1280x2048, .f32⟩
  | .local _ .vmem, ⟨3, _⟩ => ⟨S1280x2048, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1280x2048_S1280x2048_0_0 : ∀ a, (![0, 0] : Fin 2 → Nat) a + S1280x2048.size a ≤ S1280x2048.size a
  h_S1280x2048 : 0 < S1280x2048.numel
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  reducesTo_S4096x1_S_d0_1 : S4096x1.ReducesTo [0, 1] S_
  h_S_ : 0 < S_.numel
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .f32 = 32 ∨ (Rect.block (s := S32000x2048) S1280x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S32000x2048 : Shape := ⟨2, ![32000, 2048]⟩
abbrev S4096 : Shape := ⟨1, ![4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S32000x2048, .f32⟩
  | .hbm, ⟨2, _⟩ => ⟨S4096, .i32⟩
  | .hbm, ⟨3, _⟩ => ⟨S4096x32000, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x32000, .f32⟩
  | .hbm, ⟨8, _⟩ => ⟨S4096x32000, .f32⟩
  | .hbm, ⟨9, _⟩ => ⟨S4096x32000, .f32⟩
  | .hbm, ⟨10, _⟩ => ⟨S_, .f32⟩
  | .hbm, ⟨11, _⟩ => ⟨S4096, .f32⟩
  | .hbm, ⟨12, _⟩ => ⟨S4096x1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S4096x1, .i32⟩
  | .hbm, ⟨20, _⟩ => ⟨S4096x1x1, .i32⟩
  | .hbm, ⟨21, _⟩ => ⟨S1, .i32⟩
  | .hbm, ⟨22, _⟩ => ⟨S_, .i32⟩
  | .hbm, ⟨23, _⟩ => ⟨S4096x1x1, .i32⟩
  | .hbm, ⟨24, _⟩ => ⟨S4096x1x1, .i1⟩
  | .hbm, ⟨25, _⟩ => ⟨S1x1x1, .i32⟩
  | .hbm, ⟨26, _⟩ => ⟨S4096x1x1, .i32⟩
  | .hbm, ⟨27, _⟩ => ⟨S4096x1x1, .i1⟩
  | .hbm, ⟨28, _⟩ => ⟨S4096x1x1, .i1⟩
  | .hbm, ⟨29, _⟩ => ⟨S_, .i1⟩
  | .hbm, ⟨30, _⟩ => ⟨S4096x1, .i1⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x2048_S32000x2048_S4096x32000_1_1_0_0_n_n_wf : DotDims.WF S4096x2048 S32000x2048 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x2048_S32000x2048_S4096x32000_1_1_0_0_n_n : DotDims S4096x2048 S32000x2048 S4096x32000 where
  lhsContracting := [1]
  rhsContracting := [1]
  lhsNonContracting := [0]
  rhsNonContracting := [0]
  lhsBatch := []
  rhsBatch := []
  wf := dot_S4096x2048_S32000x2048_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPay.lean ====
/-
  What the kernel body computes at one grid point, read entry by entry over the extended reals: the block of
  scores (a contraction over the feature axis), the new running maximum of a row, the rescaled running sum of
  exponentials, the running picked score (the one column whose number equals the row's label), and the final
  row loss.
-/
import proofs.«414031_j87445534147042_3_alg».proof.Proof.Gen.KernelIdeal.Skeleton
import proofs.«414031_j87445534147042_3_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Pay

open Cert.KernelIdeal Cert.KernelIdeal.Gen Idealize.ShloMosaic Idealize.ShloMosaic.ValueIdx

/-- The left operand's row coordinate is the output's row. -/
theorem lhs_dot_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
/-- The left operand's feature coordinate is the contraction index. -/
theorem lhs_dot_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
/-- The right operand's row coordinate is the output's column. -/
theorem rhs_dot_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
/-- The right operand's feature coordinate is the contraction index. -/
theorem rhs_dot_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The block of scores: row `r` of the first block against row `c` of the second, contracted over the 2048 features. -/
theorem pay7_apply (x0 : Vec Ideal S1024x2048 .f32) (x1 : Vec Ideal S1280x2048 .f32) (r : Fin 1024) (c : Fin 1280) :
    k0_pay7 (F := Ideal) x0 x1 (ix2 r c) = ∑ k : Fin 2048, x0 (ix2 r k) * x1 (ix2 c k) := by
  unfold k0_pay7
  simp only [matmul]
  rw [Ideal.matmul_constant_zero_apply, ← Equiv.sum_comp (ValueIdx.contrEquiv1 dot_S1024x2048_S1280x2048_S1024x1280_1_1_0_0_n_n 2048 rfl rfl).symm]
  refine Finset.sum_congr rfl fun k _ => ?_
  have hk := ValueIdx.contrEquiv1_symm_val dot_S1024x2048_S1280x2048_S1024x1280_1_1_0_0_n_n 2048 rfl rfl k
  have el : dot_S1024x2048_S1280x2048_S1024x1280_1_1_0_0_n_n.lhsIdx (ix2 r c) ((ValueIdx.contrEquiv1 dot_S1024x2048_S1280x2048_S1024x1280_1_1_0_0_n_n 2048 rfl rfl).symm k) = ix2 r k := funext fun a => Fin.ext (by
    match a with
    | ⟨0, _⟩ => exact lhs_dot_0 _ _
    | ⟨1, _⟩ => exact (lhs_dot_1 _ _).trans hk)
  have er : dot_S1024x2048_S1280x2048_S1024x1280_1_1_0_0_n_n.rhsIdx (ix2 r c) ((ValueIdx.contrEquiv1 dot_S1024x2048_S1280x2048_S1024x1280_1_1_0_0_n_n 2048 rfl rfl).symm k) = ix2 c k := funext fun a => Fin.ext (by
    match a with
    | ⟨0, _⟩ => exact rhs_dot_0 _ _
    | ⟨1, _⟩ => exact (rhs_dot_1 _ _).trans hk)
  rw [el, er]
  rfl

/-- A row's index with the lane coordinate `c` inserted is the pair (row, lane). -/
theorem lift_row (h : S1024x1280.Reduces [1] S1024) (r : Fin 1024) (c : Fin 1280) :
    h.lift (ix1 r) c = ix2 r c := by
  funext a
  refine Fin.ext ?_
  match a with
  | ⟨0, _⟩ => rfl
  | ⟨1, _⟩ => rfl

/-- The word 0xFF800000 is -∞. -/
theorem ofBits_neg_inf : Ideal.ofBits .f32 0xFF800000#32 = (⊥ : EReal) := by
  simp [Ideal.ofBits, Ideal.ieee]

/-- The lane maximum of a block at row `r`: the fold of `max` from -∞ over the row's 1280 entries. -/
theorem rowMax_apply (src : FVec Ideal S1024x1280 .f32) (h : S1024x1280.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Finset.univ.fold max (⊥ : EReal) (fun c : Fin 1280 => src (ix2 r c)) := by
  refine (Ideal.multiReduction_maximumf_single src 0xFF800000#32 h hφ hacc (ix1 r)).trans ?_
  have hf : (src ∘ h.lift (ix1 r)) = fun c : Fin 1280 => src (ix2 r c) := funext fun c => congrArg src (lift_row h r c)
  rw [hf]
  show Finset.univ.fold max (Ideal.ofBits .f32 0xFF800000#32) _ = _
  rw [ofBits_neg_inf]
  rfl

/-- The lane sum of a block at row `r`: the sum of the row's 1280 entries. -/
theorem rowSum_apply (src : FVec Ideal S1024x1280 .f32) (h : S1024x1280.Reduces [1] S1024) (hφ : FKind.Formats .f32)
    (hacc : (0x00000000#32 : BitVec 32) = 0x00000000#32) (r : Fin 1024) :
    multiReduction (F := Ideal) .add [1] S1024 src 0x00000000#32 h hφ hacc (ix1 r)
      = ∑ c : Fin 1280, src (ix2 r c) := by
  refine (Ideal.multiReduction_add_single src 0x00000000#32 h hφ hacc (ix1 r)).trans ?_
  exact Finset.sum_congr rfl fun c _ => congrArg src (lift_row h r c)

/-- The new running maximum of row `r`: the old one against the largest score of the block's row. -/
theorem pay9_apply (x0 : Vec Ideal S1024x2048 .f32) (x1 : Vec Ideal S1280x2048 .f32) (M : Vec Ideal S1024x1 .f32) (r : Fin 1024) :
    k0_pay9 (F := Ideal) x0 x1 M (ix2 r 0)
      = max (M (ix2 r 0)) (Finset.univ.fold max (⊥ : EReal) (fun c : Fin 1280 => k0_pay7 (F := Ideal) x0 x1 (ix2 r c))) := by
  unfold k0_pay9
  rw [maximumf_apply, shapeCast_a_a1_apply, rowMax_apply]

/-- The rescaling factor of row `r`: exp (given value - new maximum). -/
theorem pay10_apply (x0 : Vec Ideal S1024x2048 .f32) (x1 : Vec Ideal S1280x2048 .f32) (M N : Vec Ideal S1024x1 .f32) (r : Fin 1024) :
    k0_pay10 (F := Ideal) x0 x1 M N (ix2 r 0)
      = Ideal.exp (N (ix2 r 0) - k0_pay9 (F := Ideal) x0 x1 M (ix2 r 0)) := by
  unfold k0_pay10
  rfl

/-- The block's exponentials: exp (score - new maximum of the score's row). -/
theorem pay11_apply (x0 : Vec Ideal S1024x2048 .f32) (x1 : Vec Ideal S1280x2048 .f32) (M : Vec Ideal S1024x1 .f32) (r : Fin 1024) (c : Fin 1280) :
    k0_pay11 (F := Ideal) x0 x1 M (ix2 r c)
      = Ideal.exp (k0_pay7 (F := Ideal) x0 x1 (ix2 r c) - k0_pay9 (F := Ideal) x0 x1 M (ix2 r 0)) := by
  unfold k0_pay11
  show Ideal.exp (k0_pay7 (F := Ideal) x0 x1 (ix2 r c) - broadcastTo S1024x1280 (k0_pay9 (F := Ideal) x0 x1 M) broadcasts_S1024x1_S1024x1280 (ix2 r c)) = _
  rw [broadcastTo_a1_ab_apply]

/-- The new running sum of exponentials of row `r`: the old one rescaled by exp (old maximum - new maximum), plus the
    block's exponentials relative to the new maximum. -/
theorem sumExp_apply (x0 : Vec Ideal S1024x2048 .f32) (x1 : Vec Ideal S1280x2048 .f32) (M L : Vec Ideal S1024x1 .f32) (r : Fin 1024) :
    k0_pay1 (F := Ideal) (k0_pay10 (F := Ideal) x0 x1 M M) (k0_pay11 (F := Ideal) x0 x1 M) L (ix2 r 0)
      = Ideal.exp (M (ix2 r 0) - k0_pay9 (F := Ideal) x0 x1 M (ix2 r 0)) * L (ix2 r 0)
        + ∑ c : Fin 1280, Ideal.exp (k0_pay7 (F := Ideal) x0 x1 (ix2 r c) - k0_pay9 (F := Ideal) x0 x1 M (ix2 r 0)) := by
  unfold k0_pay1
  rw [shapeCast_self, addf_apply, mulf_apply, shapeCast_a_a1_apply, rowSum_apply, pay10_apply]
  exact congrArg _ (Finset.sum_congr rfl fun c _ => pay11_apply x0 x1 M r c)

/-- The column's global number as a word: 1280 times the block's number plus the place in the block; nothing wraps,
    since the block's number is below 25 and the place below 1280. -/
theorem colWord_eq (n c : Nat) (hn : n < 25) (hc : c < 1280) :
    IntOp.addi (Scalar.muli (BitVec.ofNat 32 n) 1280#32) (BitVec.ofNat 32 c) = BitVec.ofNat 32 (n * 1280 + c) := by
  apply BitVec.eq_of_toNat_eq
  simp only [IntOp.addi, Scalar.muli, IntOp.muli, BitVec.toNat_add, BitVec.toNat_mul, BitVec.toNat_ofNat]
  omega

/-- The comparison of that word with a label word holds exactly when the label's number is the column's. -/
theorem pick_iff (n c : Nat) (hn : n < 25) (hc : c < 1280) (w : BitVec 32) :
    IntOp.cmpi .eq (IntOp.addi (Scalar.muli (BitVec.ofNat 32 n) 1280#32) (BitVec.ofNat 32 c)) w = 1#1
      ↔ w.toNat = n * 1280 + c := by
  rw [StableHlo.Predicate.cmpi_eq_iff, colWord_eq n c hn hc]
  constructor
  · intro h
    rw [← h, BitVec.toNat_ofNat]
    exact Nat.mod_eq_of_lt (by omega)
  · intro h
    apply BitVec.eq_of_toNat_eq
    rw [BitVec.toNat_ofNat, h]
    exact Nat.mod_eq_of_lt (by omega)

/-- So the select on that comparison is the `if` on the label's number. -/
theorem pick_select (n c : Nat) (hn : n < 25) (hc : c < 1280) (w : BitVec 32) (a : EReal) :
    Scalar.select (IntOp.cmpi .eq (IntOp.addi (Scalar.muli (BitVec.ofNat 32 n) 1280#32) (BitVec.ofNat 32 c)) w) a (0 : EReal)
      = if w.toNat = n * 1280 + c then a else 0 := by
  by_cases h : w.toNat = n * 1280 + c
  · rw [if_pos h, (pick_iff n c hn hc w).2 h, select_one]
  · rw [if_neg h, eq_zero_of_ne_one (fun h1 => h ((pick_iff n c hn hc w).1 h1)), select_zero]

/-- The new running picked score of row `r`: the old one plus the block's scores at the columns whose global number
    (1280 times the block's number, plus the column's place in the block) is the row's label. -/
theorem pay8_apply (i : grid0.Coords) (x0 : Vec Ideal S1024x2048 .f32) (x1 : Vec Ideal S1280x2048 .f32)
    (x2 : Vec Ideal S1024x1 .i32) (G : Vec Ideal S1024x1 .f32) (r : Fin 1024) :
    k0_pay8 (F := Ideal) i x0 x1 x2 G (ix2 r 0)
      = G (ix2 r 0) + ∑ c : Fin 1280, (if (x2 (ix2 r 0)).toNat = (i 1).val * 1280 + c.val
          then k0_pay7 (F := Ideal) x0 x1 (ix2 r c) else 0) := by
  unfold k0_pay8
  rw [shapeCast_self, addf_apply, shapeCast_a_a1_apply, rowSum_apply]
  refine congrArg _ (Finset.sum_congr rfl fun c _ => ?_)
  show Scalar.select (IntOp.cmpi .eq
      (IntOp.addi (Scalar.muli (BitVec.ofNat 32 (i 1).val) 1280#32) (iota .tc S1024x1280 32 [1] iota_S1024x1280_d1_w32 (ix2 r c)))
      (broadcastTo S1024x1280 (shapeCast S1024x1 x2 shapeCasts_S1024x1_S1024x1) broadcasts_S1024x1_S1024x1280 (ix2 r c)))
      (k0_pay7 (F := Ideal) x0 x1 (ix2 r c)) (Ideal.ofBits .f32 0x00000000#32) = _
  rw [iota_single_apply, broadcastTo_a1_ab_apply, shapeCast_self, Ideal.ofBits_zero_f32]
  exact pick_select (i 1).val c.val (i 1).isLt c.isLt (x2 (ix2 r 0)) _

/-- The row loss stored after the last block: 0 - ((picked - maximum) - log (sum of exponentials)). -/
theorem pay3_apply (G M L : Vec Ideal S1024x1 .f32) (r : Fin 1024) :
    k0_pay3 (F := Ideal) G M L (ix2 r 0) = 0 - ((G (ix2 r 0) - M (ix2 r 0)) - Ideal.log (L (ix2 r 0))) := by
  unfold k0_pay3
  rw [subf_apply, broadcast_apply, subf_apply, subf_apply]
  show Ideal.ofBits .f32 0x00000000#32 - _ = _
  rw [Ideal.ofBits_zero_f32]
  rfl

/-- The statistics a row starts from: the maximum at -∞, -/
theorem pay4_apply (y : S1024x1.Idx) : k0_pay4 (F := Ideal) y = (⊥ : EReal) := by
  unfold k0_pay4
  rw [shapeCast_self]
  exact ofBits_neg_inf
/-- the sum of exponentials at 0, -/
theorem pay5_apply (y : S1024x1.Idx) : k0_pay5 (F := Ideal) y = (0 : EReal) := by
  unfold k0_pay5
  rw [shapeCast_self]
  exact Ideal.ofBits_zero_f32
/-- the picked score at 0. -/
theorem pay6_apply (y : S1024x1.Idx) : k0_pay6 (F := Ideal) y = (0 : EReal) := by
  unfold k0_pay6
  rw [shapeCast_self]
  exact Ideal.ofBits_zero_f32

/-- Storing the new maximum changes nothing of it (a cast to its own shape). -/
theorem pay2_eq {F : FTy → Type} [FloatOps F] (v : FVec F S1024x1 .f32) : k0_pay2 (F := F) v = v := by
  unfold k0_pay2
  exact shapeCast_self v _

end Cert.KernelIdeal.Pay

end
-- ==== Proof.KernelCases.lean ====
/-
  What one grid point leaves in the three carried statistics (running maximum, running sum of exponentials, running
  picked score) and, at a row block's last point, in the output block: each is ONE expression of the point's input
  blocks and of the statistics the point found (at a row block's first point: of the starting statistics -∞, 0, 0,
  which the point itself stores first and then reads back).
-/
import proofs.«414031_j87445534147042_3_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The new running maximum from the point's two float blocks and the old maximum. -/
abbrev stepM (x0 : Vec F S1024x2048 .f32) (x1 : Vec F S1280x2048 .f32) (M : Vec F S1024x1 .f32) : Vec F S1024x1 .f32 :=
  k0_pay9 x0 x1 M
/-- The new running sum of exponentials from the blocks, the old maximum and the old sum. -/
abbrev stepL (x0 : Vec F S1024x2048 .f32) (x1 : Vec F S1280x2048 .f32) (M L : Vec F S1024x1 .f32) : Vec F S1024x1 .f32 :=
  k0_pay1 (k0_pay10 x0 x1 M M) (k0_pay11 x0 x1 M) L
/-- The new running picked score from the blocks, the labels' block and the old picked score. -/
abbrev stepG (i : grid0.Coords) (x0 : Vec F S1024x2048 .f32) (x1 : Vec F S1280x2048 .f32) (x2 : Vec F S1024x1 .i32)
    (G : Vec F S1024x1 .f32) : Vec F S1024x1 .f32 :=
  k0_pay8 i x0 x1 x2 G

/-! ## A row block's first point: from the starting statistics -/

theorem first_max (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_0 c i arg2 harg2 arg3 harg3 arg4 harg4 arg5 harg5 arg6 harg6 arg7 harg7 arg8 harg8 hc0 hc1 x0 x1 x2 = stepM x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem first_sum (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_1 c i arg2 harg2 arg3 harg3 arg4 harg4 arg5 harg5 arg6 harg6 arg7 harg7 arg8 harg8 hc0 hc1 x0 x1 x2 = stepL x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem first_pick (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_2 c i arg2 harg2 arg3 harg3 arg4 harg4 arg5 harg5 arg6 harg6 arg7 harg7 arg8 harg8 hc0 hc1 x0 x1 x2 = stepG i x0 x1 x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

/-! ## A middle point: from what the point before left -/

theorem mid_max (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 xs1 xs2 : Vec F S1024x1 .f32) :
    sout0_B_0 c i arg2 harg2 arg3 harg3 arg4 harg4 arg5 harg5 arg6 harg6 arg7 harg7 arg8 harg8 hc0 hc1 x0 x1 x2 xs0 xs1 xs2 = stepM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem mid_sum (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 xs1 xs2 : Vec F S1024x1 .f32) :
    sout0_B_1 c i arg2 harg2 arg3 harg3 arg4 harg4 arg5 harg5 arg6 harg6 arg7 harg7 arg8 harg8 hc0 hc1 x0 x1 x2 xs0 xs1 xs2 = stepL x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem mid_pick (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 xs1 xs2 : Vec F S1024x1 .f32) :
    sout0_B_2 c i arg2 harg2 arg3 harg3 arg4 harg4 arg5 harg5 arg6 harg6 arg7 harg7 arg8 harg8 hc0 hc1 x0 x1 x2 xs0 xs1 xs2 = stepG i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

/-! ## A row block's last point: the same step, and the row losses stored from the new statistics -/

theorem last_max (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 xs1 xs2 : Vec F S1024x1 .f32) :
    sout0_C_0 c i arg2 harg2 arg3 harg3 arg4 harg4 arg5 harg5 arg6 harg6 arg7 harg7 arg8 harg8 hc0 hc1 x0 x1 x2 xs0 xs1 xs2 = stepM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem last_sum (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 xs1 xs2 : Vec F S1024x1 .f32) :
    sout0_C_1 c i arg2 harg2 arg3 harg3 arg4 harg4 arg5 harg5 arg6 harg6 arg7 harg7 arg8 harg8 hc0 hc1 x0 x1 x2 xs0 xs1 xs2 = stepL x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem last_pick (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 xs1 xs2 : Vec F S1024x1 .f32) :
    sout0_C_2 c i arg2 harg2 arg3 harg3 arg4 harg4 arg5 harg5 arg6 harg6 arg7 harg7 arg8 harg8 hc0 hc1 x0 x1 x2 xs0 xs1 xs2 = stepG i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

theorem last_out (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 xs1 xs2 : Vec F S1024x1 .f32) :
    out0_C_3 c i arg2 harg2 arg3 harg3 arg4 harg4 arg5 harg5 arg6 harg6 arg7 harg7 arg8 harg8 hc0 hc1 x0 x1 x2 xs0 xs1 xs2 = k0_pay3 (stepG i x0 x1 x2 xs2) (stepM x0 x1 xs0) (stepL x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S1024x2048) hz, View.ld_unit_zero (S := S1280x2048) hz, View.ld_unit_zero (S := S1024x1) hz, View.readCov_unit_zero (S := S1024x1) _ hz, k0_pay2, shapeCast_self]

end Cert.KernelIdeal.Cases

end
-- ==== Proof.Softmax.lean ====
/-
  Real-number facts about the softmax statistics of one row of scores, accumulated block of columns by block of
  columns: the running maximum, the running sum of exponentials taken relative to the running maximum (rescaled
  by exp (old maximum - new maximum) when the maximum moves), and the running sum that picks out the score of one
  chosen column. After all columns these are the row's maximum, its sum of exponentials relative to the maximum,
  and the chosen column's score, whatever the blocks were.
-/
import Idealize.ShloMosaic.PureOps.Ideal
import Mathlib.Analysis.SpecialFunctions.Log.Basic

namespace Cert.Softmax

open Idealize.ShloMosaic

variable {ι : Type} [DecidableEq ι]

/-- `μ` is the largest value `ℓ` takes on `S`, and it is taken there. -/
def IsMax (S : Finset ι) (ℓ : ι → ℝ) (μ : ℝ) : Prop :=
  (∀ v ∈ S, ℓ v ≤ μ) ∧ ∃ v ∈ S, ℓ v = μ

/-- The three running statistics of a row after the columns in `S` (a nonempty set, since a maximum is attained):
    the maximum, the sum of `exp (ℓ v - maximum)`, and the score of column `g` if it is among them (else 0). -/
def RowInv (ℓ : ι → ℝ) (g : ι) (S : Finset ι) (M L G : EReal) : Prop :=
  ∃ μ : ℝ, IsMax S ℓ μ ∧ M = (μ : EReal) ∧ L = ((∑ v ∈ S, Real.exp (ℓ v - μ) : ℝ) : EReal)
    ∧ G = ((∑ v ∈ S, (if v = g then ℓ v else 0) : ℝ) : EReal)

/-- The statistics before the first block: no column seen, the maximum at -∞, both sums at 0. -/
def RowStart (S : Finset ι) (M L G : EReal) : Prop := S = ∅ ∧ M = ⊥ ∧ L = 0 ∧ G = 0

/-- The embedding of the reals in the extended reals carries finite sums to finite sums. -/
theorem coe_finset_sum {κ : Type} (s : Finset κ) (a : κ → ℝ) :
    ∑ t ∈ s, (a t : EReal) = ((∑ t ∈ s, a t : ℝ) : EReal) := by
  classical
  induction s using Finset.induction_on with
  | empty => simp
  | insert x s hx ih => rw [Finset.sum_insert hx, Finset.sum_insert hx, ih, EReal.coe_add]

/-- The fold of `max` from -∞ over finitely many real values (at least one) is their largest value. -/
theorem fold_max_coe_sup' {κ : Type} (s : Finset κ) (hs : s.Nonempty) (β : κ → ℝ) :
    s.fold max (⊥ : EReal) (fun c => (β c : EReal)) = ((s.sup' hs β : ℝ) : EReal) := by
  apply le_antisymm
  · rw [Finset.fold_max_le]
    exact ⟨bot_le, fun x hx => EReal.coe_le_coe_iff.2 (Finset.le_sup' β hx)⟩
  · rw [Finset.le_fold_max]
    obtain ⟨x, hx, hxe⟩ := Finset.exists_mem_eq_sup' hs β
    exact Or.inr ⟨x, hx, by rw [hxe]⟩

/-- The largest value of `β` on a nonempty finite set is a maximum in the sense of `IsMax`. -/
theorem isMax_sup' (s : Finset ι) (hs : s.Nonempty) (β : ι → ℝ) : IsMax s β (s.sup' hs β) := by
  refine ⟨fun v hv => Finset.le_sup' β hv, ?_⟩
  obtain ⟨x, hx, hxe⟩ := Finset.exists_mem_eq_sup' hs β
  exact ⟨x, hx, hxe.symm⟩

/-- An attained maximum is unique. -/
theorem IsMax.unique {S : Finset ι} {ℓ : ι → ℝ} {μ ν : ℝ} (h₁ : IsMax S ℓ μ) (h₂ : IsMax S ℓ ν) : μ = ν := by
  obtain ⟨v, hv, hve⟩ := h₁.2
  obtain ⟨w, hw, hwe⟩ := h₂.2
  exact le_antisymm (hve ▸ h₂.1 v hv) (hwe ▸ h₁.1 w hw)

/-- The maximum over a union is the larger of the two maxima, attained on the side that gives it. -/
theorem IsMax.union {S T : Finset ι} {ℓ : ι → ℝ} {μ ν : ℝ} (h₁ : IsMax S ℓ μ) (h₂ : IsMax T ℓ ν) :
    IsMax (S ∪ T) ℓ (max μ ν) := by
  refine ⟨fun v hv => ?_, ?_⟩
  · rcases Finset.mem_union.1 hv with hv | hv
    · exact le_trans (h₁.1 v hv) (le_max_left _ _)
    · exact le_trans (h₂.1 v hv) (le_max_right _ _)
  · rcases le_total μ ν with hle | hle
    · obtain ⟨w, hw, hwe⟩ := h₂.2
      exact ⟨w, Finset.mem_union_right _ hw, by rw [max_eq_right hle, hwe]⟩
    · obtain ⟨w, hw, hwe⟩ := h₁.2
      exact ⟨w, Finset.mem_union_left _ hw, by rw [max_eq_left hle, hwe]⟩

/-- ONE BLOCK. From the start or from the statistics after `S`, a block of `n > 0` new columns `e c` with scores
    `b c` moves the maximum to `M' = max M (max over the block)`, the sum of exponentials to
    `exp (M - M') * L + Σ exp (b c - M')`, and the picked score to `G + Σ (b c if e c = g else 0)`: the statistics
    after `S ∪ block`. -/
theorem rowInv_step {n : ℕ} (hn : 0 < n) (ℓ : ι → ℝ) (g : ι) (S : Finset ι) (e : Fin n → ι)
    (he : Function.Injective e) (hdisj : ∀ c, e c ∉ S) (M L G : EReal)
    (h : RowStart S M L G ∨ RowInv ℓ g S M L G)
    (b : Fin n → EReal) (hb : ∀ c, b c = (ℓ (e c) : EReal))
    (sel : Fin n → EReal) (hsel : ∀ c, sel c = if e c = g then b c else 0) :
    RowInv ℓ g (S ∪ Finset.univ.image e) (max M (Finset.univ.fold max ⊥ b))
      (Ideal.exp (M - max M (Finset.univ.fold max ⊥ b)) * L
        + ∑ c, Ideal.exp (b c - max M (Finset.univ.fold max ⊥ b)))
      (G + ∑ c, sel c) := by
  haveI : Nonempty (Fin n) := ⟨⟨0, hn⟩⟩
  have hbf : b = fun c => ((ℓ (e c) : ℝ) : EReal) := funext hb
  -- the block's own maximum, attained since the block is nonempty
  obtain ⟨μB, hμB, hfold⟩ : ∃ μB : ℝ, IsMax (Finset.univ.image e) ℓ μB
      ∧ Finset.univ.fold max ⊥ b = (μB : EReal) := by
    refine ⟨Finset.univ.sup' Finset.univ_nonempty (fun c => ℓ (e c)), ?_, ?_⟩
    · obtain ⟨hle, c, -, hc⟩ := isMax_sup' Finset.univ Finset.univ_nonempty (fun c => ℓ (e c))
      refine ⟨fun v hv => ?_, e c, Finset.mem_image_of_mem e (Finset.mem_univ c), hc⟩
      obtain ⟨d, -, rfl⟩ := Finset.mem_image.1 hv
      exact hle d (Finset.mem_univ d)
    · rw [hbf]; exact fold_max_coe_sup' _ _ _
  -- the block's sums, relative to any real level `m`, as real sums over the block's columns
  have hsumexp : ∀ m : ℝ, ∑ c, Ideal.exp (b c - (m : EReal))
      = ((∑ v ∈ Finset.univ.image e, Real.exp (ℓ v - m) : ℝ) : EReal) := by
    intro m
    rw [Finset.sum_image (fun x _ y _ hxy => he hxy), ← coe_finset_sum]
    refine Finset.sum_congr rfl (fun c _ => ?_)
    rw [hb c, ← EReal.coe_sub, Ideal.exp_coe]
  have hsumsel : ∑ c, sel c
      = ((∑ v ∈ Finset.univ.image e, (if v = g then ℓ v else 0) : ℝ) : EReal) := by
    rw [Finset.sum_image (fun x _ y _ hxy => he hxy), ← coe_finset_sum]
    refine Finset.sum_congr rfl (fun c _ => ?_)
    rw [hsel c, hb c]
    split_ifs <;> simp
  have hdisj' : Disjoint S (Finset.univ.image e) := by
    rw [Finset.disjoint_right]
    intro v hv
    obtain ⟨c, -, rfl⟩ := Finset.mem_image.1 hv
    exact hdisj c
  rw [hfold]
  rcases h with ⟨hS, hM, hL, hG⟩ | ⟨μ, hμ, hM, hL, hG⟩
  · -- from the start: the old sum is 0, so the rescaling factor does not matter
    subst hS hM hL hG
    have hmax : max (⊥ : EReal) (μB : EReal) = (μB : EReal) := max_eq_right bot_le
    rw [hmax, Finset.empty_union]
    exact ⟨μB, hμB, rfl, by rw [mul_zero, zero_add, hsumexp], by rw [zero_add, hsumsel]⟩
  · -- from the statistics after `S`: rescale the old sum to the new maximum
    subst hM hL hG
    have hmax : max (μ : EReal) (μB : EReal) = ((max μ μB : ℝ) : EReal) :=
      (EReal.coe_strictMono.monotone.map_max).symm
    rw [hmax]
    refine ⟨max μ μB, hμ.union hμB, rfl, ?_, ?_⟩
    · rw [hsumexp, ← EReal.coe_sub, Ideal.exp_coe, ← EReal.coe_mul, ← EReal.coe_add,
        Finset.sum_union hdisj', Finset.mul_sum]
      congr 2
      refine Finset.sum_congr rfl (fun v _ => ?_)
      rw [← Real.exp_add]
      congr 1
      ring
    · rw [hsumsel, ← EReal.coe_add, Finset.sum_union hdisj']

variable [Fintype ι] [Nonempty ι]

/-- The largest score of a row. -/
noncomputable def rowMax (ℓ : ι → ℝ) : ℝ := Finset.univ.sup' Finset.univ_nonempty ℓ

/-- The log-probability softmax gives column `g`: its score minus the row's maximum minus the log of the sum of
    exponentials relative to the maximum. -/
noncomputable def logProb (ℓ : ι → ℝ) (g : ι) : ℝ :=
  ℓ g - rowMax ℓ - Real.log (∑ v, Real.exp (ℓ v - rowMax ℓ))

/-- A nonempty sum of exponentials is positive, so its logarithm in the extended reals is the real logarithm. -/
theorem log_sum_exp (ℓ : ι → ℝ) (m : ℝ) :
    Ideal.log ((∑ v, Real.exp (ℓ v - m) : ℝ) : EReal) = ((Real.log (∑ v, Real.exp (ℓ v - m)) : ℝ) : EReal) := by
  have hpos : 0 < ∑ v, Real.exp (ℓ v - m) :=
    Finset.sum_pos (fun v _ => Real.exp_pos _) Finset.univ_nonempty
  rw [Ideal.log_coe, if_neg (not_le.2 hpos)]

/-- The statistics after ALL columns give minus the log-probability, as the streaming side forms it:
    `0 - ((G - M) - log L)`. -/
theorem rowInv_univ_loss (ℓ : ι → ℝ) (g : ι) (M L G : EReal) (h : RowInv ℓ g Finset.univ M L G) :
    (0 : EReal) - ((G - M) - Ideal.log L) = ((-(logProb ℓ g) : ℝ) : EReal) := by
  obtain ⟨μ, hμ, hM, hL, hG⟩ := h
  have hμe : μ = rowMax ℓ := hμ.unique (isMax_sup' Finset.univ Finset.univ_nonempty ℓ)
  subst hM hL hG
  rw [Finset.sum_ite_eq', if_pos (Finset.mem_univ g), log_sum_exp, ← EReal.coe_sub, ← EReal.coe_sub,
    zero_sub, ← EReal.coe_neg, hμe]
  rfl

/-- The fold of `max` from -∞ over all of a row's scores is the row's maximum. -/
theorem fold_max_eq_rowMax (ℓ : ι → ℝ) :
    Finset.univ.fold max (⊥ : EReal) (fun v => (ℓ v : EReal)) = (rowMax ℓ : EReal) :=
  fold_max_coe_sup' Finset.univ Finset.univ_nonempty ℓ

/-- The direct side: score of `g` minus the maximum minus the log of `0 + Σ exp (ℓ v - maximum)` is the
    log-probability. -/
theorem direct_logProb (ℓ : ι → ℝ) (g : ι) :
    ((ℓ g : EReal) - (rowMax ℓ : EReal)) - Ideal.log (0 + ∑ v, Ideal.exp ((ℓ v : EReal) - (rowMax ℓ : EReal)))
      = (logProb ℓ g : EReal) := by
  have hsum : ∑ v, Ideal.exp ((ℓ v : EReal) - (rowMax ℓ : EReal))
      = ((∑ v, Real.exp (ℓ v - rowMax ℓ) : ℝ) : EReal) := by
    rw [← coe_finset_sum]
    refine Finset.sum_congr rfl (fun v _ => ?_)
    rw [← EReal.coe_sub, Ideal.exp_coe]
  rw [zero_add, hsum, log_sum_exp, ← EReal.coe_sub, ← EReal.coe_sub]
  rfl

omit [DecidableEq ι] [Nonempty ι] in
/-- A sum of real numbers, taken in the extended reals from 0. -/
theorem zero_add_sum_coe (a : ι → ℝ) : (0 : EReal) + ∑ t, (a t : EReal) = ((∑ t, a t : ℝ) : EReal) := by
  rw [zero_add, coe_finset_sum]

omit [DecidableEq ι] [Nonempty ι] in
/-- A contraction of real numbers, taken in the extended reals. -/
theorem sum_mul_coe (a b : ι → ℝ) : ∑ k, (a k : EReal) * (b k : EReal) = ((∑ k, a k * b k : ℝ) : EReal) := by
  rw [← coe_finset_sum]
  exact Finset.sum_congr rfl (fun k _ => (EReal.coe_mul _ _).symm)

end Cert.Softmax
-- ==== Proof.KernelStep.lean ====
/-
  One grid point moves a row's three statistics by one block of 1280 columns: if they were the statistics of the
  row's scores over the columns below 1280·j (or the starting ones, for j = 0), they become those over the columns
  below 1280·(j+1). The block's scores are the contraction of the row of the first block with the rows of the second;
  the label picks the column whose number 1280·j + c it equals.
-/
import proofs.«414031_j87445534147042_3_alg».proof.Proof.KernelPay
import proofs.«414031_j87445534147042_3_alg».proof.Proof.KernelCases
import proofs.«414031_j87445534147042_3_alg».proof.Proof.Softmax

noncomputable section

namespace Cert.KernelIdeal.Step

open Cert.KernelIdeal Cert.KernelIdeal.Gen Cert.KernelIdeal.Cases Idealize.ShloMosaic Idealize.ShloMosaic.ValueIdx

/-- The columns below `1280 * j`: those of the first `j` blocks. -/
def cols (j : ℕ) : Finset (Fin 32000) := Finset.univ.filter fun v => v.val < 1280 * j

/-- Column `cc` of block `j`. -/
def colOf (j : ℕ) (hj : j < 25) (cc : Fin 1280) : Fin 32000 := ⟨1280 * j + cc.val, by have := cc.isLt; omega⟩

theorem cols_zero : cols 0 = ∅ := by
  unfold cols
  exact Finset.filter_false_of_mem fun v _ => by omega

theorem cols_all : cols 25 = Finset.univ := by
  unfold cols
  exact Finset.filter_true_of_mem fun v _ => by have := v.isLt; omega

theorem colOf_inj (j : ℕ) (hj : j < 25) : Function.Injective (colOf j hj) := fun a b h => by
  have := congrArg Fin.val h
  unfold colOf at this
  exact Fin.ext (by simpa using this)

theorem colOf_not_mem (j : ℕ) (hj : j < 25) (cc : Fin 1280) : colOf j hj cc ∉ cols j := by
  unfold cols colOf
  simp only [Finset.mem_filter, Finset.mem_univ, true_and]
  omega

theorem cols_succ (j : ℕ) (hj : j < 25) : cols j ∪ Finset.univ.image (colOf j hj) = cols (j + 1) := by
  ext v
  simp only [cols, colOf, Finset.mem_union, Finset.mem_filter, Finset.mem_univ, true_and, Finset.mem_image]
  constructor
  · rintro (h | ⟨cc, rfl⟩)
    · omega
    · have := cc.isLt; show 1280 * j + cc.val < 1280 * (j + 1); omega
  · intro h
    by_cases h' : v.val < 1280 * j
    · exact Or.inl h'
    · exact Or.inr ⟨⟨v.val - 1280 * j, by omega⟩, Fin.ext (by show 1280 * j + (v.val - 1280 * j) = v.val; omega)⟩

/-- ONE POINT, ONE ROW. -/
theorem row_step (i : grid0.Coords) (j : ℕ) (hj : j < 25) (hi : (i 1).val = j)
    (x0 : Vec Ideal S1024x2048 .f32) (x1 : Vec Ideal S1280x2048 .f32) (x2 : Vec Ideal S1024x1 .i32)
    (M L G : Vec Ideal S1024x1 .f32) (r : Fin 1024) (ℓ : Fin 32000 → ℝ) (gg : Fin 32000)
    (hb : ∀ cc : Fin 1280, ∑ k : Fin 2048, x0 (ix2 r k) * x1 (ix2 cc k) = (ℓ (colOf j hj cc) : EReal))
    (hx2 : (x2 (ix2 r 0)).toNat = gg.val)
    (h : Softmax.RowStart (cols j) (M (ix2 r 0)) (L (ix2 r 0)) (G (ix2 r 0))
      ∨ Softmax.RowInv ℓ gg (cols j) (M (ix2 r 0)) (L (ix2 r 0)) (G (ix2 r 0))) :
    Softmax.RowInv ℓ gg (cols (j + 1)) (stepM x0 x1 M (ix2 r 0)) (stepL x0 x1 M L (ix2 r 0))
      (stepG i x0 x1 x2 G (ix2 r 0)) := by
  have hstep := Softmax.rowInv_step (n := 1280) (by norm_num) ℓ gg (cols j) (colOf j hj) (colOf_inj j hj)
    (colOf_not_mem j hj) _ _ _ h
    (fun cc => k0_pay7 (F := Ideal) x0 x1 (ix2 r cc)) (fun cc => by rw [Pay.pay7_apply]; exact hb cc)
    (fun cc => if (x2 (ix2 r 0)).toNat = (i 1).val * 1280 + cc.val then k0_pay7 (F := Ideal) x0 x1 (ix2 r cc) else 0)
    (fun cc => by
      have hiff : ((x2 (ix2 r 0)).toNat = (i 1).val * 1280 + cc.val) ↔ colOf j hj cc = gg := by
        rw [hx2, hi]
        constructor
        · intro h'; exact Fin.ext (by show 1280 * j + cc.val = gg.val; omega)
        · intro h'; have := congrArg Fin.val h'; unfold colOf at this; simp only at this; omega
      by_cases hc : colOf j hj cc = gg
      · rw [if_pos (hiff.mpr hc), if_pos hc]
      · rw [if_neg (fun h' => hc (hiff.mp h')), if_neg hc])
  rw [cols_succ] at hstep
  unfold stepM stepL stepG
  rw [Pay.sumExp_apply, Pay.pay8_apply, Pay.pay9_apply]
  exact hstep

end Cert.KernelIdeal.Step

end
-- ==== Proof.KernelBlocks.lean ====
/-
  Where a grid point's input blocks sit in the arrays: point t = 25·i + j works on row block i (rows 1024·i … of the
  first array and of the labels) and on column block j (rows 1280·j … of the second array); the labels' column is
  the label vector laid out as a 4096 × 1 array.
-/
import proofs.«414031_j87445534147042_3_alg».proof.Proof.Gen.KernelIdeal.Frame
import proofs.«414031_j87445534147042_3_alg».proof.Proof.LibColumnLayout
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid's coordinates, decided once over the 100 points: point t has coordinates (t / 25, t % 25). -/
theorem coord_facts : ∀ t : Fin cfg0.N,
    ((grid0.coords t) 0).val = t.val / 25 ∧ ((grid0.coords t) 1).val = t.val % 25 :=
  (by decide +kernel : ∀ t : Fin grid0.N, ((grid0.coords t) 0).val = t.val / 25 ∧ ((grid0.coords t) 1).val = t.val % 25)

/-- The first array's window at point t: row block t / 25, column block 0. -/
theorem idx_facts0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)

/-- The second array's window at point t: row block t % 25, column block 0. -/
theorem idx_facts1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-- The labels' window at point t: row block t / 25, column block 0. -/
theorem idx_facts2 : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)

/-- The grid has 100 points. -/
theorem N_eq : cfg0.N = 100 := N_0

/-- Point `t`'s row-block coordinate is `t / 25`, -/
theorem coord0 (t : Fin cfg0.N) : ((grid0.coords t) 0).val = t.val / 25 := by
  exact (coord_facts t).1
/-- and its column-block coordinate is `t % 25`. -/
theorem coord1 (t : Fin cfg0.N) : ((grid0.coords t) 1).val = t.val % 25 := by
  exact (coord_facts t).2

/-- The first array's block at point `t`, at (r, k): the array at row `1024 · (t / 25) + r`. -/
theorem xblk_apply (c : Dev nD) (t : Fin cfg0.N) (r : Fin 1024) (k : Fin 2048) (hrow : 1024 * (t.val / 25) + r.val < 4096) :
    (iblk m c 0 t : Vec F S1024x2048 .f32) (ix2 r k)
      = m ((c : Thread nD τ).loc main_arg0) (ix2 ⟨1024 * (t.val / 25) + r.val, hrow⟩ k) := by
  unfold iblk
  rw [View.read_apply]
  show V m c main_arg0 _ = m ((c : Thread nD τ).loc main_arg0) _
  rw [V_main_arg0 m c]
  congr 1
  funext a
  apply Fin.ext
  match a with
  | ⟨0, _⟩ =>
    show win0_0.index t 0 * 1024 + 1 * r.val = 1024 * (t.val / 25) + r.val
    rw [(idx_facts0 t).1]; omega
  | ⟨1, _⟩ =>
    show win0_0.index t 1 * 2048 + 1 * k.val = k.val
    rw [(idx_facts0 t).2]; omega

/-- The second array's block at point `t`, at (cc, k): the array at row `1280 · (t % 25) + cc`. -/
theorem wblk_apply (c : Dev nD) (t : Fin cfg0.N) (cc : Fin 1280) (k : Fin 2048) (hcol : 1280 * (t.val % 25) + cc.val < 32000) :
    (iblk m c 1 t : Vec F S1280x2048 .f32) (ix2 cc k)
      = m ((c : Thread nD τ).loc main_arg1) (ix2 ⟨1280 * (t.val % 25) + cc.val, hcol⟩ k) := by
  unfold iblk
  rw [View.read_apply]
  show V m c main_arg1 _ = m ((c : Thread nD τ).loc main_arg1) _
  rw [V_main_arg1 m c]
  congr 1
  funext a
  apply Fin.ext
  match a with
  | ⟨0, _⟩ =>
    show win0_1.index t 0 * 1280 + 1 * cc.val = 1280 * (t.val % 25) + cc.val
    rw [(idx_facts1 t).1]; omega
  | ⟨1, _⟩ =>
    show win0_1.index t 1 * 2048 + 1 * k.val = k.val
    rw [(idx_facts1 t).2]; omega

/-- The labels' block at point `t`, at (r, 0): the label of row `1024 · (t / 25) + r`. -/
theorem lblk_apply (c : Dev nD) (t : Fin cfg0.N) (r : Fin 1024) (hrow : 1024 * (t.val / 25) + r.val < 4096) :
    (iblk m c 2 t : Vec F S1024x1 .i32) (ix2 r (0 : Fin 1))
      = m ((c : Thread nD τ).loc main_arg2) (ix1 ⟨1024 * (t.val / 25) + r.val, hrow⟩) := by
  have e : (V m c main_v0 : S4096x1.Idx → _) = shapeCast S4096x1 (m ((c : Thread nD τ).loc main_arg2)) shapeCasts_S4096_S4096x1 := by
    show StableHlo.after hostOps0 (fun b => m (c, b)) (Proc.devRef .tc main_v0) = _
    after_results
    rfl
  unfold iblk
  rw [View.read_apply]
  show V m c main_v0 _ = m ((c : Thread nD τ).loc main_arg2) _
  rw [e]
  have hidx : (((cfg0.win 2).blk t).view.emb (ix2 r (0 : Fin 1)) : S4096x1.Idx)
      = ix2 (⟨1024 * (t.val / 25) + r.val, hrow⟩ : Fin 4096) (0 : Fin 1) := by
    funext a
    apply Fin.ext
    match a with
    | ⟨0, _⟩ =>
      show win0_2.index t 0 * 1024 + 1 * r.val = 1024 * (t.val / 25) + r.val
      rw [(idx_facts2 t).1]; omega
    | ⟨1, _⟩ =>
      show win0_2.index t 1 * 1 + 1 * 0 = 0
      rw [(idx_facts2 t).2]
  exact (congrArg (shapeCast S4096x1 (m ((c : Thread nD τ).loc main_arg2)) shapeCasts_S4096_S4096x1) hidx).trans
    (shapeCast_a_a1_apply (m ((c : Thread nD τ).loc main_arg2)) shapeCasts_S4096_S4096x1 ⟨1024 * (t.val / 25) + r.val, hrow⟩ (0 : Fin 1))

end Cert.KernelIdeal.Blocks

end
-- ==== Proof.KernelInv.lean ====
/-
  The statistics the kernel carries, point by point: after point t = 25·i + j, row r of the three carried columns
  holds the running maximum, sum of exponentials and picked score of row 1024·i + r over the columns below
  1280·(j+1). At j = 24 these are the row's full softmax statistics, and the output block holds minus the
  log-probability of the row's label.
-/
import proofs.«414031_j87445534147042_3_alg».proof.Proof.KernelStep
import proofs.«414031_j87445534147042_3_alg».proof.Proof.KernelBlocks

noncomputable section

namespace Cert.KernelIdeal.Inv

open Cert.KernelIdeal Cert.KernelIdeal.Gen Cert.KernelIdeal.Cases Cert.KernelIdeal.Step Cert.KernelIdeal.Blocks
open Idealize.ShloMosaic Idealize.ShloMosaic.TcCoe Idealize.SL.Sem Idealize.ShloMosaic.ValueIdx

variable (m : (ℓ : Loc nD τ sig) → Buf (Elt Ideal) ℓ)
variable (sc : Dev nD → Fin 4096 → Fin 32000 → ℝ) (lab : Dev nD → Fin 4096 → Fin 32000)

/-- The three argument arrays as the program is launched with them. -/
abbrev xarr (c : Dev nD) : Vec Ideal S4096x2048 .f32 := m ((c : Thread nD τ).loc main_arg0)
abbrev warr (c : Dev nD) : Vec Ideal S32000x2048 .f32 := m ((c : Thread nD τ).loc main_arg1)
abbrev larr (c : Dev nD) : Vec Ideal S4096 .i32 := m ((c : Thread nD τ).loc main_arg2)

/-- The scores are real: row t of the first array contracted with row v of the second is the real number `sc c t v`. -/
def Scores : Prop := ∀ (c : Dev nD) (t : Fin 4096) (v : Fin 32000),
  ∑ k : Fin 2048, xarr m c (ix2 t k) * warr m c (ix2 v k) = (sc c t v : EReal)

/-- The labels are column numbers: row t's label word is `lab c t`. -/
def Labels : Prop := ∀ (c : Dev nD) (t : Fin 4096), larr m c (ix1 t) = BitVec.ofNat 32 (lab c t).val

/-- The array row that row `r` of point `n`'s row block is. -/
def rowOf (n : ℕ) (h : n < cfg0.N) (r : Fin 1024) : Fin 4096 :=
  ⟨1024 * (n / 25) + r.val, by have : cfg0.N = 100 := N_0; have := r.isLt; omega⟩

/-- Point `t`'s three input blocks, at their literal shapes. -/
abbrev xblk (c : Dev nD) (t : Fin cfg0.N) : Vec Ideal S1024x2048 .f32 := iblk m c 0 t
abbrev wblk (c : Dev nD) (t : Fin cfg0.N) : Vec Ideal S1280x2048 .f32 := iblk m c 1 t
abbrev lblk (c : Dev nD) (t : Fin cfg0.N) : Vec Ideal S1024x1 .i32 := iblk m c 2 t

/-- What the carried columns hold after point `t`, at their literal shapes. -/
abbrev maxAt (c : Dev nD) (n : ℕ) (h : n < cfg0.N) : Vec Ideal S1024x1 .f32 := (outsAt0 m c n h).2.1
abbrev sumAt (c : Dev nD) (n : ℕ) (h : n < cfg0.N) : Vec Ideal S1024x1 .f32 := (outsAt0 m c n h).2.2.1
abbrev pickAt (c : Dev nD) (n : ℕ) (h : n < cfg0.N) : Vec Ideal S1024x1 .f32 := (outsAt0 m c n h).2.2.2
abbrev outAt (c : Dev nD) (n : ℕ) (h : n < cfg0.N) : Vec Ideal S1024x1 .f32 := (outsAt0 m c n h).1

/-- A row block's first point steps from the starting statistics. -/
theorem comps_first (c : Dev nD) (t : Fin cfg0.N) (h0 : t.val % 25 = 0) :
    maxAt m c t.val t.isLt = stepM (xblk m c t) (wblk m c t) (k0_pay4 (F := Ideal))
    ∧ sumAt m c t.val t.isLt = stepL (xblk m c t) (wblk m c t) (k0_pay4 (F := Ideal)) (k0_pay5 (F := Ideal))
    ∧ pickAt m c t.val t.isLt = stepG (grid0.coords t) (xblk m c t) (wblk m c t) (lblk m c t) (k0_pay6 (F := Ideal)) := by
  have h1 : ¬t.val % 25 = 24 := by omega
  refine ⟨?_, ?_, ?_⟩
  · show (outsAt0 m c t.val t.isLt).2.1 = _
    rw [outsAt0_A m c t h0 h1]; dsimp only
    exact first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)
  · show (outsAt0 m c t.val t.isLt).2.2.1 = _
    rw [outsAt0_A m c t h0 h1]; dsimp only
    exact first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)
  · show (outsAt0 m c t.val t.isLt).2.2.2 = _
    rw [outsAt0_A m c t h0 h1]; dsimp only
    exact first_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (wblk m c t) (lblk m c t)

/-- Every other point steps from what the point before left. -/
theorem comps_next (c : Dev nD) (t : Fin cfg0.N) (h0 : ¬t.val % 25 = 0) :
    maxAt m c t.val t.isLt = stepM (xblk m c t) (wblk m c t) (maxAt m c (t.val - 1) (Nat.lt_of_le_of_lt (Nat.sub_le _ _) t.isLt))
    ∧ sumAt m c t.val t.isLt = stepL (xblk m c t) (wblk m c t) (maxAt m c (t.val - 1) (Nat.lt_of_le_of_lt (Nat.sub_le _ _) t.isLt))
        (sumAt m c (t.val - 1) (Nat.lt_of_le_of_lt (Nat.sub_le _ _) t.isLt))
    ∧ pickAt m c t.val t.isLt = stepG (grid0.coords t) (xblk m c t) (wblk m c t) (lblk m c t)
        (pickAt m c (t.val - 1) (Nat.lt_of_le_of_lt (Nat.sub_le _ _) t.isLt)) := by
  by_cases h1 : t.val % 25 = 24
  · refine ⟨?_, ?_, ?_⟩
    · show (outsAt0 m c t.val t.isLt).2.1 = _
      rw [outsAt0_C m c t h0 h1]; dsimp only
      exact last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) _ _ _
    · show (outsAt0 m c t.val t.isLt).2.2.1 = _
      rw [outsAt0_C m c t h0 h1]; dsimp only
      exact last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) _ _ _
    · show (outsAt0 m c t.val t.isLt).2.2.2 = _
      rw [outsAt0_C m c t h0 h1]; dsimp only
      exact last_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) _ _ _
  · refine ⟨?_, ?_, ?_⟩
    · show (outsAt0 m c t.val t.isLt).2.1 = _
      rw [outsAt0_B m c t h0 h1]; dsimp only
      exact mid_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) _ _ _
    · show (outsAt0 m c t.val t.isLt).2.2.1 = _
      rw [outsAt0_B m c t h0 h1]; dsimp only
      exact mid_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) _ _ _
    · show (outsAt0 m c t.val t.isLt).2.2.2 = _
      rw [outsAt0_B m c t h0 h1]; dsimp only
      exact mid_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (lblk m c t) _ _ _

/-- At a row block's last point the output block is the row loss formed from that point's own new statistics. -/
theorem comp_out (c : Dev nD) (t : Fin cfg0.N) (h1 : t.val % 25 = 24) :
    outAt m c t.val t.isLt = k0_pay3 (pickAt m c t.val t.isLt) (maxAt m c t.val t.isLt) (sumAt m c t.val t.isLt) := by
  have h0 : ¬t.val % 25 = 0 := by omega
  show (outsAt0 m c t.val t.isLt).1 = k0_pay3 (outsAt0 m c t.val t.isLt).2.2.2 (outsAt0 m c t.val t.isLt).2.1 (outsAt0 m c t.val t.isLt).2.2.1
  rw [outsAt0_C m c t h0 h1]; dsimp only
  rw [last_max, last_sum, last_pick]
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (wblk m c t) (lblk m c t) _ _ _

/-- ONE POINT, ONE ROW, over the arrays: from the statistics over the columns below 1280·(t % 25) (or the starting
    ones) to those over the columns below 1280·(t % 25 + 1). -/
theorem point_step (hsc : Scores m sc) (hlab : Labels m lab) (c : Dev nD) (t : Fin cfg0.N) (r : Fin 1024)
    (M L G : Vec Ideal S1024x1 .f32)
    (hprev : Softmax.RowStart (cols (t.val % 25)) (M (ix2 r 0)) (L (ix2 r 0)) (G (ix2 r 0))
      ∨ Softmax.RowInv (sc c (rowOf t.val t.isLt r)) (lab c (rowOf t.val t.isLt r)) (cols (t.val % 25))
          (M (ix2 r 0)) (L (ix2 r 0)) (G (ix2 r 0))) :
    Softmax.RowInv (sc c (rowOf t.val t.isLt r)) (lab c (rowOf t.val t.isLt r)) (cols (t.val % 25 + 1))
      (stepM (xblk m c t) (wblk m c t) M (ix2 r 0)) (stepL (xblk m c t) (wblk m c t) M L (ix2 r 0))
      (stepG (grid0.coords t) (xblk m c t) (wblk m c t) (lblk m c t) G (ix2 r 0)) := by
  have hj : t.val % 25 < 25 := Nat.mod_lt _ (by norm_num)
  have hN : cfg0.N = 100 := N_0
  have hrow : 1024 * (t.val / 25) + r.val < 4096 := by have := t.isLt; have := r.isLt; omega
  have hx : ∀ k : Fin 2048, xblk m c t (ix2 r k) = xarr m c (ix2 (rowOf t.val t.isLt r) k) :=
    fun k => xblk_apply m c t r k hrow
  have hw : ∀ (cc : Fin 1280) (k : Fin 2048), wblk m c t (ix2 cc k) = warr m c (ix2 (colOf (t.val % 25) hj cc) k) :=
    fun cc k => wblk_apply m c t cc k (by have := cc.isLt; omega)
  have hl : lblk m c t (ix2 r (0 : Fin 1)) = larr m c (ix1 (rowOf t.val t.isLt r)) := lblk_apply m c t r hrow
  refine row_step (grid0.coords t) (t.val % 25) hj (coord1 t) (xblk m c t) (wblk m c t) (lblk m c t) M L G r
    (sc c (rowOf t.val t.isLt r)) (lab c (rowOf t.val t.isLt r)) (fun cc => ?_) ?_ hprev
  · rw [← hsc c (rowOf t.val t.isLt r) (colOf (t.val % 25) hj cc)]
    exact Finset.sum_congr rfl fun k _ => by rw [hx k, hw cc k]
  · rw [hl, hlab c (rowOf t.val t.isLt r), BitVec.toNat_ofNat]
    exact Nat.mod_eq_of_lt (by have := (lab c (rowOf t.val t.isLt r)).isLt; omega)

theorem rowOf_succ (n : ℕ) (h : n + 1 < cfg0.N) (h0 : ¬(n + 1) % 25 = 0) (r : Fin 1024) :
    rowOf (n + 1) h r = rowOf n (Nat.lt_of_succ_lt h) r :=
  Fin.ext (by
    show 1024 * ((n + 1) / 25) + r.val = 1024 * (n / 25) + r.val
    have : (n + 1) / 25 = n / 25 := by omega
    rw [this])

/-- THE INVARIANT: after point `n` the carried columns hold the statistics over the columns below 1280·(n % 25 + 1). -/
theorem stats (hsc : Scores m sc) (hlab : Labels m lab) (c : Dev nD) : ∀ (n : ℕ) (h : n < cfg0.N) (r : Fin 1024),
    Softmax.RowInv (sc c (rowOf n h r)) (lab c (rowOf n h r)) (cols (n % 25 + 1))
      (maxAt m c n h (ix2 r 0)) (sumAt m c n h (ix2 r 0)) (pickAt m c n h (ix2 r 0)) := by
  intro n
  induction n with
  | zero =>
    intro h r
    obtain ⟨e1, e2, e3⟩ := comps_first m c ⟨0, h⟩ rfl
    rw [show maxAt m c 0 h = _ from e1, show sumAt m c 0 h = _ from e2, show pickAt m c 0 h = _ from e3]
    exact point_step m sc lab hsc hlab c ⟨0, h⟩ r _ _ _
      (Or.inl ⟨cols_zero, Pay.pay4_apply _, Pay.pay5_apply _, Pay.pay6_apply _⟩)
  | succ n ih =>
    intro h r
    by_cases h0 : (n + 1) % 25 = 0
    · obtain ⟨e1, e2, e3⟩ := comps_first m c ⟨n + 1, h⟩ h0
      rw [show maxAt m c (n + 1) h = _ from e1, show sumAt m c (n + 1) h = _ from e2, show pickAt m c (n + 1) h = _ from e3]
      exact point_step m sc lab hsc hlab c ⟨n + 1, h⟩ r _ _ _
        (Or.inl ⟨by show cols ((n + 1) % 25) = ∅; rw [h0]; exact cols_zero, Pay.pay4_apply _, Pay.pay5_apply _, Pay.pay6_apply _⟩)
    · obtain ⟨e1, e2, e3⟩ := comps_next m c ⟨n + 1, h⟩ h0
      rw [show maxAt m c (n + 1) h = _ from e1, show sumAt m c (n + 1) h = _ from e2, show pickAt m c (n + 1) h = _ from e3]
      refine point_step m sc lab hsc hlab c ⟨n + 1, h⟩ r _ _ _ (Or.inr ?_)
      have ih' := ih (Nat.lt_of_succ_lt h) r
      rw [← rowOf_succ n h h0 r] at ih'
      have hmod : (n + 1) % 25 = n % 25 + 1 := by omega
      show Softmax.RowInv (sc c (rowOf (n + 1) h r)) (lab c (rowOf (n + 1) h r)) (cols ((n + 1) % 25)) _ _ _
      rw [hmod]
      exact ih'

/-- At a row block's last point the output block holds minus the log-probabilities of its rows' labels. -/
theorem out_block (hsc : Scores m sc) (hlab : Labels m lab) (c : Dev nD) (n : ℕ) (h : n < cfg0.N) (hn : n % 25 = 24) (r : Fin 1024) :
    (outsAt0 m c n h).1 (ix2 r 0)
      = ((-(Softmax.logProb (sc c (rowOf n h r)) (lab c (rowOf n h r))) : ℝ) : EReal) := by
  have hs := stats m sc lab hsc hlab c n h r
  rw [hn, show (24 : ℕ) + 1 = 25 from rfl, cols_all] at hs
  show outAt m c n h (ix2 r 0) = _
  rw [show outAt m c n h = _ from comp_out m c ⟨n, h⟩ hn, Pay.pay3_apply]
  exact Softmax.rowInv_univ_loss _ _ _ _ _ hs

end Cert.KernelIdeal.Inv

end
-- ==== Proof.KernelFinal.lean ====
/-
  The kernel program's result: the output array's row blocks are written back at each row block's last point and
  hold minus the log-probabilities of the rows' labels; the host sum over the 4096 × 1 array from 0 is minus the
  summed log-probabilities.
-/
import proofs.«414031_j87445534147042_3_alg».proof.Proof.KernelInv
import Idealize.ShloMosaic.Lib.Pipeline.Value
import Idealize.ShloMosaic.Lib.StableHlo.Run
import Idealize.ShloMosaic.PureOps.Ideal.Laws

noncomputable section

namespace Cert.KernelIdeal.Final

open Cert.KernelIdeal Cert.KernelIdeal.Gen Cert.KernelIdeal.Inv Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
variable (sc : Dev nD → Fin 4096 → Fin 32000 → ℝ) (lab : Dev nD → Fin 4096 → Fin 32000)

/-- The result: minus the sum over the rows of the log-probability of the row's label. -/
abbrev total (c : Dev nD) : Vec Ideal S_ .f32 :=
  fun _ => ((-(∑ t, Cert.Softmax.logProb (sc c t) (lab c t)) : ℝ) : EReal)

/-- The whole output column: row `p` holds minus the log-probability of row `p`'s label. -/
def lossCol (c : Dev nD) : Vec Ideal S4096x1 .f32 :=
  fun y => ((-(Softmax.logProb (sc c ⟨(y 0).val, idx2_lt0 y⟩) (lab c ⟨(y 0).val, idx2_lt0 y⟩)) : ℝ) : EReal)

/-- The column at an index whose row coordinate is `p`. -/
theorem lossCol_apply (c : Dev nD) (y : S4096x1.Idx) (p : Fin 4096) (hp : (y 0).val = p.val) :
    lossCol sc lab c y = ((-(Softmax.logProb (sc c p) (lab c p)) : ℝ) : EReal) := by
  have e : (⟨(y 0).val, idx2_lt0 y⟩ : Fin 4096) = p := Fin.ext hp
  unfold lossCol
  rw [e]

/-- Output window 3 at point t: row block t / 25, column block 0. -/
theorem idx_facts3 : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- What a write-back writes is the block of the column: at a row block's last point the output block holds minus
    the log-probabilities of its rows' labels, and block row `r` of point `t` is array row `1024 · (t / 25) + r`. -/
theorem flushed_eq (hsc : Scores m sc) (hlab : Labels m lab) (c : Dev nD) (t : Fin cfg0.N) (hf : (cfg0.win 3).flush t = true) :
    (dats m 0 c).flushed 3 t = ((cfg0.win 3).blk t).view.read (Elt Ideal) (lossCol sc lab c) := by
  show (cfg0.win 3).cut (grid0.coords t) ((dats m 0 c).after 3 t) = _
  rw [after0_3]
  funext j
  have hn : t.val % 25 = 24 := (flush0_3 t).mp hf
  have hj0 : (j 0).val < 1024 := (j 0).isLt
  have hj1 : (j 1).val < 1 := (j 1).isLt
  rw [View.read_apply]
  show (outsAt0 m c t.val t.isLt).1 ((cfg0.win 3).xinj (grid0.coords t) j) = lossCol sc lab c (((cfg0.win 3).blk t).view.emb j)
  have e : ((cfg0.win 3).xinj (grid0.coords t) j : S1024x1.Idx) = ix2 ⟨(j 0).val, hj0⟩ (0 : Fin 1) := by
    funext a; apply Fin.ext
    match a with
    | ⟨0, _⟩ => rfl
    | ⟨1, _⟩ => show (j 1).val = 0; omega
  refine (congrArg (outsAt0 m c t.val t.isLt).1 e).trans ?_
  refine (out_block m sc lab hsc hlab c t.val t.isLt hn ⟨(j 0).val, hj0⟩).trans ?_
  refine (lossCol_apply sc lab c _ (rowOf t.val t.isLt ⟨(j 0).val, hj0⟩) ?_).symm
  show win0_3.index t (0 : Fin 2) * 1024 + 1 * (j 0).val = 1024 * (t.val / 25) + (j 0).val
  rw [(idx_facts3 t).1]; omega

/-- Every row of the array is written back at its row block's last point: row `p` at point `25 · (p / 1024) + 24`. -/
theorem cover (i : S4096x1.Idx) : ∃ t : Fin cfg0.N, (cfg0.win 3).flush t = true ∧ i ∈ ((cfg0.win 3).blk t).view.set := by
  have hN : cfg0.N = 100 := N_0
  have hi0 : (i 0).val < 4096 := idx2_lt0 i
  have hi1 : (i 1).val < 1 := idx2_lt1 i
  have ht : 25 * ((i 0).val / 1024) + 24 < cfg0.N := by omega
  refine ⟨⟨25 * ((i 0).val / 1024) + 24, ht⟩, (flush0_3 _).mpr (by show (25 * ((i 0).val / 1024) + 24) % 25 = 24; omega), ?_⟩
  obtain ⟨e0, e1⟩ := idx_facts3 ⟨25 * ((i 0).val / 1024) + 24, ht⟩
  show i ∈ ((View.whole main_v1).slice (win0_3.rect ⟨25 * ((i 0).val / 1024) + 24, ht⟩)).set
  rw [View.set_slice_whole, Rect.mem_set_unit]
  intro a
  match a with
  | ⟨0, _⟩ =>
    show win0_3.index ⟨25 * ((i 0).val / 1024) + 24, ht⟩ (0 : Fin 2) * 1024 ≤ (i 0).val
      ∧ (i 0).val < win0_3.index ⟨25 * ((i 0).val / 1024) + 24, ht⟩ (0 : Fin 2) * 1024 + 1024
    rw [e0]
    show (25 * ((i 0).val / 1024) + 24) / 25 * 1024 ≤ (i 0).val ∧ (i 0).val < (25 * ((i 0).val / 1024) + 24) / 25 * 1024 + 1024
    omega
  | ⟨1, _⟩ =>
    show win0_3.index ⟨25 * ((i 0).val / 1024) + 24, ht⟩ (1 : Fin 2) * 1 ≤ (i 1).val
      ∧ (i 1).val < win0_3.index ⟨25 * ((i 0).val / 1024) + 24, ht⟩ (1 : Fin 2) * 1 + 1
    rw [e1]
    omega

/-- So the output array ends holding the whole column. -/
theorem final (hsc : Scores m sc) (hlab : Labels m lab) (c : Dev nD) : (dats m 0 c).arrAt 3 cfg0.N = lossCol sc lab c :=
  (dats m 0 c).arrAt_eq_of_cover 3 (lossCol sc lab c) (flushed_eq m sc lab hsc hlab c) cover

/-- The two host operations after the region: the sum of the whole column from 0 is minus the summed
    log-probabilities. -/
theorem tail_eq (hsc : Scores m sc) (hlab : Labels m lab) (c : Dev nD) :
    Pipeline.afterTail₀ cfgs (dats m) 0 (V0 m) [hostOps1] c main_v2 = total sc lab c := by
  unfold Pipeline.afterTail₀
  show StableHlo.after hostOps1 _ (Proc.devRef .tc main_v2) = _
  after_results
  have hv1 : Pipeline.withArrays (cfgs 0).spec c (V0 m c) (fun w => (dats m 0 c).arrAt w (cfgs 0).N) (Proc.devRef .tc main_v1)
      = lossCol sc lab c :=
    (Pipeline.withArrays_arr spec0 launch0.win.arr_inj c _ _ 3).trans (final m sc lab hsc hlab c)
  rw [hv1]
  funext j
  refine (Ideal.hostReduceAdd_total reducesTo_S4096x1_S_d0_1 (fun b => b.elim0) (lossCol sc lab c) _ j).trans ?_
  show Ideal.ofBits .f32 0x00000000#32 + _ = _
  have hs : ∀ a : Fin 4096, ∑ b : Fin 1, lossCol sc lab c (ix2 a b)
      = ((-(Softmax.logProb (sc c a) (lab c a)) : ℝ) : EReal) := fun a => by
    rw [Fin.sum_univ_one]; exact lossCol_apply sc lab c _ a rfl
  rw [Ideal.ofBits_zero_f32, sum_idx2, Finset.sum_congr rfl (fun a _ => hs a),
    Softmax.zero_add_sum_coe (fun a => -(Softmax.logProb (sc c a) (lab c a))), Finset.sum_neg_distrib]

/-- The kernel program's run, read: the result at `total`, the three arguments unchanged. -/
theorem run (hsc : Scores m sc) (hlab : Labels m lab) :
    θ_run defs (onTc (τ := τ) (main (F := Ideal))) ⟨m, fun _ => 0, ρ⟩ (fun r => ∀ c : Dev nD,
      r.2.mem ((c.tc : Thread nD τ).loc main_v2) = total sc lab c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v2 (Pipeline.mem_restRefs_of main_v2 (by decide) (by decide))).trans (tail_eq m sc lab hsc hlab c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference program's result, read entry by entry over the extended reals: minus the sum over the rows of the
  log-probability that softmax over a row's scores gives the row's label, when the scores are real numbers and every
  label is a column number.
-/
import proofs.«414031_j87445534147042_3_alg».proof.Proof.Gen.ReferenceIdeal.Read
import proofs.«414031_j87445534147042_3_alg».proof.Proof.Softmax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.RefValue

open Cert.ReferenceIdeal Cert.ReferenceIdeal.Gen Idealize.ShloMosaic Idealize.ShloMosaic.ValueIdx

/-- The score of row `t` and column `v` is the real number `ℓ t v`. -/
theorem logits_at (x0 : (⟨S4096x2048, .f32⟩ : BufTy).Contents (Elt Ideal)) (x1 : (⟨S32000x2048, .f32⟩ : BufTy).Contents (Elt Ideal))
    (ℓ : Fin 4096 → Fin 32000 → ℝ)
    (hℓ : ∀ t v, ∑ k : Fin 2048, x0 (ix2 t k) * x1 (ix2 v k) = (ℓ t v : EReal)) (t : Fin 4096) (v : Fin 32000) :
    Cert.ReferenceIdeal.Read.val_main_v0 (F := Ideal) x0 x1 (ix2 t v) = (ℓ t v : EReal) := by
  rw [Cert.ReferenceIdeal.Read.val_main_v0_apply, ← hℓ t v]
  refine Finset.sum_congr rfl fun k _ => ?_
  have el : Cert.ReferenceIdeal.Read.lidx_main_v0 (ix2 t v) k = ix2 t k :=
    funext fun a => Fin.ext (by match a with | ⟨0, _⟩ => rfl | ⟨1, _⟩ => rfl)
  have er : Cert.ReferenceIdeal.Read.ridx_main_v0 (ix2 t v) k = ix2 v k :=
    funext fun a => Fin.ext (by match a with | ⟨0, _⟩ => rfl | ⟨1, _⟩ => rfl)
  rw [el, er]

/-- Row `t` with column `k` put back on the dropped axis is the entry (t, k). -/
theorem lift_row (h : S4096x32000.Reduces [1] S4096) (t : Fin 4096) (k : Fin (S4096x32000.size 1)) :
    h.lift (ix1 t) k = ix2 t (⟨k.val, k.isLt⟩ : Fin 32000) := by
  funext c; apply Fin.ext
  match c with
  | ⟨0, _⟩ => rfl
  | ⟨1, _⟩ => rfl

/-- The row maximum the reference forms is the largest score of the row. -/
theorem rowmax_at (x0 : (⟨S4096x2048, .f32⟩ : BufTy).Contents (Elt Ideal)) (x1 : (⟨S32000x2048, .f32⟩ : BufTy).Contents (Elt Ideal))
    (ℓ : Fin 4096 → Fin 32000 → ℝ)
    (hℓ : ∀ t v, ∑ k : Fin 2048, x0 (ix2 t k) * x1 (ix2 v k) = (ℓ t v : EReal)) (t : Fin 4096) :
    Cert.ReferenceIdeal.Read.val_main_v1 (F := Ideal) x0 x1 (ix1 t) = (Cert.Softmax.rowMax (ℓ t) : EReal) := by
  have h : S4096x32000.Reduces [1] S4096 := by decide
  unfold Cert.ReferenceIdeal.Read.val_main_v1
  rw [Host.reduce_eq_fold_single FloatOps.maximumf _ _ reducesTo_S4096x32000_S4096_d1 h h_S_]
  have hf : (Cert.ReferenceIdeal.Read.val_main_v0 (F := Ideal) x0 x1 ∘ h.lift (ix1 t)) = fun k : Fin 32000 => (ℓ t k : EReal) :=
    funext fun k => by
      show Cert.ReferenceIdeal.Read.val_main_v0 (F := Ideal) x0 x1 (h.lift (ix1 t) k) = _
      rw [lift_row h t k]
      exact logits_at x0 x1 ℓ hℓ t _
  have hi : Cert.ReferenceIdeal.Read.val_main_cst (F := Ideal) (Shape.Idx.first h_S_) = (⊥ : EReal) := by
    rw [Cert.ReferenceIdeal.Read.val_main_cst_apply]
    simp [Ideal.ofBits, Ideal.ieee]
  rw [hi]
  refine Eq.trans ?_ (Cert.Softmax.fold_max_eq_rowMax (ℓ t))
  exact congrArg (fun f => Finset.fold max (⊥ : EReal) f (Finset.univ : Finset (Fin 32000))) hf

/-- The sum of exponentials the reference forms for row `t`, relative to the row's maximum. -/
theorem sumexp_at (x0 : (⟨S4096x2048, .f32⟩ : BufTy).Contents (Elt Ideal)) (x1 : (⟨S32000x2048, .f32⟩ : BufTy).Contents (Elt Ideal))
    (ℓ : Fin 4096 → Fin 32000 → ℝ)
    (hℓ : ∀ t v, ∑ k : Fin 2048, x0 (ix2 t k) * x1 (ix2 v k) = (ℓ t v : EReal)) (t : Fin 4096) :
    Cert.ReferenceIdeal.Read.val_main_v6 (F := Ideal) x0 x1 (ix1 t)
      = 0 + ∑ v : Fin 32000, Ideal.exp ((ℓ t v : EReal) - (Cert.Softmax.rowMax (ℓ t) : EReal)) := by
  rw [Cert.ReferenceIdeal.Read.val_main_v6_apply, Cert.ReferenceIdeal.Read.val_main_cst_0_apply, Ideal.ofBits_def,
    Ideal.ofBits_zero_f32]
  refine congrArg (0 + ·) (Finset.sum_congr rfl fun k _ => ?_)
  have e6 : Cert.ReferenceIdeal.Read.idx_main_v6 (ix1 t) k = ix2 t k :=
    funext fun a => Fin.ext (by match a with | ⟨0, _⟩ => rfl | ⟨1, _⟩ => rfl)
  have e3 : Cert.ReferenceIdeal.Read.idx_main_v3 (ix2 t k) = ix2 t (0 : Fin 1) :=
    funext fun a => Fin.ext (by match a with | ⟨0, _⟩ => rfl | ⟨1, _⟩ => rfl)
  have e2 : Cert.ReferenceIdeal.Read.idx_main_v2 (ix2 t (0 : Fin 1)) = ix1 t :=
    funext fun a => Fin.ext (by match a with | ⟨0, _⟩ => rfl)
  rw [e6, Cert.ReferenceIdeal.Read.val_main_v5_apply, Cert.ReferenceIdeal.Read.val_main_v4_apply,
    Cert.ReferenceIdeal.Read.val_main_v3_apply, e3, Cert.ReferenceIdeal.Read.val_main_v2_apply, e2,
    logits_at x0 x1 ℓ hℓ t k, rowmax_at x0 x1 ℓ hℓ t, Ideal.hostUnary_exp_def, Ideal.subf_def]

/-- A column number, as a 32-bit word, has the column number as its value. -/
theorem word_toNat (n : Fin 32000) : (BitVec.ofNat 32 n.val).toNat = n.val := by
  rw [BitVec.toNat_ofNat]; exact Nat.mod_eq_of_lt (by have := n.isLt; omega)

/-- The start index the reference hands the gather for row `t` is the row's label: a label that is a column
    number is not negative, so the wrap-around of negative labels leaves it alone. -/
theorem label_at (x2 : (⟨S4096, .i32⟩ : BufTy).Contents (Elt Ideal)) (g : Fin 4096 → Fin 32000)
    (hg : ∀ t, x2 (ix1 t) = BitVec.ofNat 32 (g t).val) (t : Fin 4096) :
    Cert.ReferenceIdeal.Read.val_main_call0_v5 (F := Ideal) x2 (ix3 t (0 : Fin 1) (0 : Fin 1)) = BitVec.ofNat 32 (g t).val := by
  have e5 : Cert.ReferenceIdeal.Read.idx_main_call0_v5 (ix3 t (0 : Fin 1) (0 : Fin 1)) = ix2 t (0 : Fin 1) :=
    funext fun a => Fin.ext (by
      match a with
      | ⟨0, _⟩ => show ((t.val * 1 + 0) * 1 + 0) / 1 = t.val; omega
      | ⟨1, _⟩ => rfl)
  have e7 : Cert.ReferenceIdeal.Read.idx_main_v7 (ix2 t (0 : Fin 1)) = ix1 t :=
    funext fun a => Fin.ext (by match a with | ⟨0, _⟩ => rfl)
  rw [Cert.ReferenceIdeal.Read.val_main_call0_v5_apply, e5, Cert.ReferenceIdeal.Read.val_main_call0_v4_apply,
    Cert.ReferenceIdeal.Read.val_main_call0_v1_apply, Cert.ReferenceIdeal.Read.val_main_v7_apply, e7, hg t,
    Cert.ReferenceIdeal.Read.val_main_call0_v0_apply, Cert.ReferenceIdeal.Read.val_main_call0_c_apply]
  have hlt : IntOp.cmpi .slt (BitVec.ofNat 32 (g t).val) 0#32 = 0#1 := by
    refine eq_zero_of_ne_one fun h1 => ?_
    have h2 := (StableHlo.Predicate.slt_iff_toNat (by rw [word_toNat]; have := (g t).isLt; omega) (by decide)).1 h1
    simp at h2
  rw [hlt]
  exact select_zero _ _

/-- The one coordinate of a size-one axis put back after (t, 0) gives (t, 0, 0). -/
theorem lift_unit (h : S4096x1x1.Reduces [2] S4096x1) (t : Fin 4096) (k : Fin (S4096x1x1.size 2)) :
    h.lift (ix2 t (0 : Fin 1)) k = ix3 t (0 : Fin 1) (0 : Fin 1) := by
  funext c; apply Fin.ext
  match c with
  | ⟨0, _⟩ => rfl
  | ⟨1, _⟩ => rfl
  | ⟨2, _⟩ => show k.val = 0; have hk : k.val < 1 := k.isLt; omega

/-- A fold over an index set with one element combines that element's value with the start value. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The reference's in-range test of row `t`'s start index passes: a column number lies in [0, 31999]. -/
theorem inrange_at (x2 : (⟨S4096, .i32⟩ : BufTy).Contents (Elt Ideal)) (g : Fin 4096 → Fin 32000)
    (hg : ∀ t, x2 (ix1 t) = BitVec.ofNat 32 (g t).val) (t : Fin 4096) :
    Cert.ReferenceIdeal.Read.val_main_call0_v12 (F := Ideal) x2 (ix2 t (0 : Fin 1)) = 1#1 := by
  have h : S4096x1x1.Reduces [2] S4096x1 := by decide
  have hw : (BitVec.ofNat 32 (g t).val).toNat < 2 ^ 31 := by rw [word_toNat]; have := (g t).isLt; omega
  have hge : IntOp.cmpi .sge (BitVec.ofNat 32 (g t).val) 0#32 = 1#1 :=
    (StableHlo.Predicate.sge_iff_toNat hw (by decide)).2 (by simp)
  have hle : IntOp.cmpi .sle (BitVec.ofNat 32 (g t).val) 31999#32 = 1#1 :=
    (StableHlo.Predicate.sle_iff_toNat hw (by decide)).2 (by rw [word_toNat]; have := (g t).isLt; simp; omega)
  have e9 : Cert.ReferenceIdeal.Read.idx_main_call0_v9 (ix3 t (0 : Fin 1) (0 : Fin 1)) = ix3 (0 : Fin 1) (0 : Fin 1) (0 : Fin 1) :=
    funext fun a => Fin.ext (by match a with | ⟨0, _⟩ => rfl | ⟨1, _⟩ => rfl | ⟨2, _⟩ => rfl)
  have hf : (Cert.ReferenceIdeal.Read.val_main_call0_v11 (F := Ideal) x2 ∘ h.lift (ix2 t (0 : Fin 1))) = fun _ => (1#1 : BitVec 1) :=
    funext fun k => by
      show Cert.ReferenceIdeal.Read.val_main_call0_v11 (F := Ideal) x2 (h.lift (ix2 t (0 : Fin 1)) k) = 1#1
      rw [lift_unit h t k, Cert.ReferenceIdeal.Read.val_main_call0_v11_apply, Cert.ReferenceIdeal.Read.val_main_call0_v7_apply,
        Cert.ReferenceIdeal.Read.val_main_call0_v10_apply, label_at x2 g hg t, Cert.ReferenceIdeal.Read.val_main_call0_v6_apply,
        Cert.ReferenceIdeal.Read.val_main_call0_c_2_apply, Cert.ReferenceIdeal.Read.val_main_call0_v9_apply,
        Cert.ReferenceIdeal.Read.val_main_call0_v8_apply, Cert.ReferenceIdeal.Read.val_main_call0_c_1_apply, hge, hle]
      rfl
  unfold Cert.ReferenceIdeal.Read.val_main_call0_v12
  rw [Host.reduce_eq_fold_single IntOp.andi _ _ reducesTo_S4096x1x1_S4096x1_d2 h h_S_, hf]
  exact (fold_fin_one IntOp.andi _ _).trans rfl

/-- The gather reads, for row `t`, the score of the row at the column the row's label names. -/
theorem gather_at (x0 : (⟨S4096x2048, .f32⟩ : BufTy).Contents (Elt Ideal)) (x1 : (⟨S32000x2048, .f32⟩ : BufTy).Contents (Elt Ideal)) (x2 : (⟨S4096, .i32⟩ : BufTy).Contents (Elt Ideal)) (g : Fin 4096 → Fin 32000)
    (hg : ∀ t, x2 (ix1 t) = BitVec.ofNat 32 (g t).val) (t : Fin 4096) :
    Cert.ReferenceIdeal.Read.val_main_call0_v13 (F := Ideal) x0 x1 x2 (ix2 t (0 : Fin 1))
      = Cert.ReferenceIdeal.Read.val_main_v0 (F := Ideal) x0 x1 (ix2 t (g t)) := by
  unfold Cert.ReferenceIdeal.Read.val_main_call0_v13 Host.gather
  refine congrArg (Cert.ReferenceIdeal.Read.val_main_v0 (F := Ideal) x0 x1) ?_
  funext a; apply Fin.ext
  match a with
  | ⟨0, _⟩ =>
    show gather_S4096x32000_S4096x1x1_S4096x1_n_1_0_0_1_2_11.start (ix2 t (0 : Fin 1)) (Cert.ReferenceIdeal.Read.val_main_call0_v5 (F := Ideal) x2) 0
      + gather_S4096x32000_S4096x1x1_S4096x1_n_1_0_0_1_2_11.batchCoord (ix2 t (0 : Fin 1)) 0
      + gather_S4096x32000_S4096x1x1_S4096x1_n_1_0_0_1_2_11.offCoord (ix2 t (0 : Fin 1)) 0 = t.val
    have hs : gather_S4096x32000_S4096x1x1_S4096x1_n_1_0_0_1_2_11.start (ix2 t (0 : Fin 1)) (Cert.ReferenceIdeal.Read.val_main_call0_v5 (F := Ideal) x2) 0 = 0 := rfl
    have hb : gather_S4096x32000_S4096x1x1_S4096x1_n_1_0_0_1_2_11.batchCoord (ix2 t (0 : Fin 1)) 0 = t.val := rfl
    have ho : gather_S4096x32000_S4096x1x1_S4096x1_n_1_0_0_1_2_11.offCoord (ix2 t (0 : Fin 1)) 0 = 0 := rfl
    rw [hs, hb, ho]; omega
  | ⟨1, _⟩ =>
    show gather_S4096x32000_S4096x1x1_S4096x1_n_1_0_0_1_2_11.start (ix2 t (0 : Fin 1)) (Cert.ReferenceIdeal.Read.val_main_call0_v5 (F := Ideal) x2) 1
      + gather_S4096x32000_S4096x1x1_S4096x1_n_1_0_0_1_2_11.batchCoord (ix2 t (0 : Fin 1)) 1
      + gather_S4096x32000_S4096x1x1_S4096x1_n_1_0_0_1_2_11.offCoord (ix2 t (0 : Fin 1)) 1 = (g t).val
    have hb : gather_S4096x32000_S4096x1x1_S4096x1_n_1_0_0_1_2_11.batchCoord (ix2 t (0 : Fin 1)) 1 = 0 := rfl
    have ho : gather_S4096x32000_S4096x1x1_S4096x1_n_1_0_0_1_2_11.offCoord (ix2 t (0 : Fin 1)) 1 = 0 := rfl
    have hsi : gather_S4096x32000_S4096x1x1_S4096x1_n_1_0_0_1_2_11.siIdx (ix2 t (0 : Fin 1)) ⟨0, Nat.one_pos⟩ = ix3 t (0 : Fin 1) (0 : Fin 1) :=
      funext fun b => Fin.ext (by match b with | ⟨0, _⟩ => rfl | ⟨1, _⟩ => rfl | ⟨2, _⟩ => rfl)
    have hs : gather_S4096x32000_S4096x1x1_S4096x1_n_1_0_0_1_2_11.start (ix2 t (0 : Fin 1)) (Cert.ReferenceIdeal.Read.val_main_call0_v5 (F := Ideal) x2) 1
        = min (Cert.ReferenceIdeal.Read.val_main_call0_v5 (F := Ideal) x2
            (gather_S4096x32000_S4096x1x1_S4096x1_n_1_0_0_1_2_11.siIdx (ix2 t (0 : Fin 1)) ⟨0, Nat.one_pos⟩)).toInt.toNat (32000 - 1) := rfl
    rw [hs, hb, ho, hsi, label_at x2 g hg t,
      StableHlo.Predicate.toInt_ofNat_small _ (by have := (g t).isLt; omega)]
    have := (g t).isLt
    simp only [Int.toNat_natCast]
    omega

/-- The score the reference picks for row `t`: the gathered one, the in-range test having passed. -/
theorem score_at (x0 : (⟨S4096x2048, .f32⟩ : BufTy).Contents (Elt Ideal)) (x1 : (⟨S32000x2048, .f32⟩ : BufTy).Contents (Elt Ideal)) (x2 : (⟨S4096, .i32⟩ : BufTy).Contents (Elt Ideal))
    (ℓ : Fin 4096 → Fin 32000 → ℝ) (g : Fin 4096 → Fin 32000)
    (hℓ : ∀ t v, ∑ k : Fin 2048, x0 (ix2 t k) * x1 (ix2 v k) = (ℓ t v : EReal))
    (hg : ∀ t, x2 (ix1 t) = BitVec.ofNat 32 (g t).val) (t : Fin 4096) :
    Cert.ReferenceIdeal.Read.val_main_v8 (F := Ideal) x0 x1 x2 (ix2 t (0 : Fin 1)) = (ℓ t (g t) : EReal) := by
  rw [Cert.ReferenceIdeal.Read.val_main_v8_apply, inrange_at x2 g hg t, gather_at x0 x1 x2 g hg t, logits_at x0 x1 ℓ hℓ t (g t)]
  exact select_one _ _

/-- Row `t`'s entry before the final sum is the log-probability softmax gives the row's label. -/
theorem logprob_at (x0 : (⟨S4096x2048, .f32⟩ : BufTy).Contents (Elt Ideal)) (x1 : (⟨S32000x2048, .f32⟩ : BufTy).Contents (Elt Ideal)) (x2 : (⟨S4096, .i32⟩ : BufTy).Contents (Elt Ideal))
    (ℓ : Fin 4096 → Fin 32000 → ℝ) (g : Fin 4096 → Fin 32000)
    (hℓ : ∀ t v, ∑ k : Fin 2048, x0 (ix2 t k) * x1 (ix2 v k) = (ℓ t v : EReal))
    (hg : ∀ t, x2 (ix1 t) = BitVec.ofNat 32 (g t).val) (t : Fin 4096) :
    Cert.ReferenceIdeal.Read.val_main_v12 (F := Ideal) x0 x1 x2 (ix1 t) = (Cert.Softmax.logProb (ℓ t) (g t) : EReal) := by
  have e9 : Cert.ReferenceIdeal.Read.idx_main_v9 (ix1 t) = ix2 t (0 : Fin 1) :=
    funext fun a => Fin.ext (by
      match a with
      | ⟨0, _⟩ => show t.val / 1 = t.val; omega
      | ⟨1, _⟩ => rfl)
  rw [Cert.ReferenceIdeal.Read.val_main_v12_apply, Cert.ReferenceIdeal.Read.val_main_v10_apply,
    Cert.ReferenceIdeal.Read.val_main_v9_apply, e9, score_at x0 x1 x2 ℓ g hℓ hg t, rowmax_at x0 x1 ℓ hℓ t,
    Cert.ReferenceIdeal.Read.val_main_v11_apply, sumexp_at x0 x1 ℓ hℓ t, Ideal.hostUnary_log_def, Ideal.subf_def, Ideal.subf_def]
  exact Cert.Softmax.direct_logProb (ℓ t) (g t)

/-- With real scores `ℓ t v` (the contraction of row `t` of the first argument with row `v` of the second) and
    labels `g t` that are column numbers, the reference's result is minus the summed log-probabilities. -/
theorem result_eq (x0 : (⟨S4096x2048, .f32⟩ : BufTy).Contents (Elt Ideal)) (x1 : (⟨S32000x2048, .f32⟩ : BufTy).Contents (Elt Ideal))
    (x2 : (⟨S4096, .i32⟩ : BufTy).Contents (Elt Ideal))
    (ℓ : Fin 4096 → Fin 32000 → ℝ) (g : Fin 4096 → Fin 32000)
    (hℓ : ∀ t v, ∑ k : Fin 2048, x0 (ix2 t k) * x1 (ix2 v k) = (ℓ t v : EReal))
    (hg : ∀ t, x2 (ix1 t) = BitVec.ofNat 32 (g t).val) :
    Cert.ReferenceIdeal.Read.val_main_v14 (F := Ideal) x0 x1 x2
      = fun _ => ((-(∑ t, Cert.Softmax.logProb (ℓ t) (g t)) : ℝ) : EReal) := by
  funext i
  -- the sum over the one-axis index set is the sum over the rows
  have hsum : ∑ j : S4096.Idx, Cert.ReferenceIdeal.Read.val_main_v12 (F := Ideal) x0 x1 x2 j
      = ∑ t : Fin 4096, (Cert.Softmax.logProb (ℓ t) (g t) : EReal) := by
    refine (Fintype.sum_equiv (⟨ix1, fun j => j 0, fun _ => rfl, fun j => (eq_ix1 j).symm⟩ : Fin 4096 ≃ S4096.Idx)
      (fun t => (Cert.Softmax.logProb (ℓ t) (g t) : EReal)) _ (fun t => ?_)).symm
    exact (logprob_at x0 x1 x2 ℓ g hℓ hg t).symm
  rw [Cert.ReferenceIdeal.Read.val_main_v14_apply, Cert.ReferenceIdeal.Read.val_main_v13_apply,
    Cert.ReferenceIdeal.Read.val_main_cst_1_apply, Ideal.ofBits_def, Ideal.ofBits_zero_f32, hsum,
    Cert.Softmax.zero_add_sum_coe, Ideal.hostNegf_def, Ideal.negf_def, EReal.coe_neg]

end Cert.ReferenceIdeal.RefValue

end
-- ==== Proof.PreDecode.lean ====
/-
  What the precondition says of the three inputs: every entry of the two float arrays is a real number (finite),
  and every label, read as a signed 32-bit integer, lies in [0, 32000).
-/
import proofs.«414031_j87445534147042_3_alg».proof.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- An extended real whose absolute value max x (-x) is below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  simp only [Ideal.cmp, StableHlo.Predicate.ofBool_eq_one_iff, decide_eq_true_eq] at h
  induction x using EReal.rec with
  | bot => simp at h
  | coe r => exact ⟨r, rfl⟩
  | top => simp at h

/-- A 32-bit word that is signed-nonnegative and signed-below 32000 is below 32000 as a natural number. -/
theorem toNat_lt_of_signed (w : BitVec 32) (h0 : IntOp.cmpi .sge w (0#32) = 1#1)
    (h1 : IntOp.cmpi .slt w (32000#32) = 1#1) : w.toNat < 32000 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e1 : (32000#32 : BitVec 32).toInt = 32000 := by decide
  rw [e0] at h0
  rw [e1] at h1
  rw [BitVec.toInt_eq_toNat_cond] at h0 h1
  split at h0 <;> omega

/-- The precondition all ones means: both float arrays hold real numbers only, and each label is below 32000 as an
    unsigned word (so it is a nonnegative signed integer below 32000). -/
theorem of_pre [Cert.Pre_finite_inputs.Facts] (x0 : FVec Ideal S4096x2048 .f32) (x1 : FVec Ideal S32000x2048 .f32) (x2 : IVec S4096 32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ t : Fin 4096, (x2 (ix1 t)).toNat < 32000) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun t => ?_⟩
  · exact real_of_abs_lt (x0 i) (Host.reduce_andi_all _ _ _ _ ix0 e0 i)
  · exact real_of_abs_lt (x1 i) (Host.reduce_andi_all _ _ _ _ ix0 e1 i)
  · have et := Host.reduce_andi_all _ _ _ _ ix0 e2 (ix1 t)
    obtain ⟨ea, eb⟩ := IntOp.andi_eq_one.1 et
    exact toNat_lt_of_signed (x2 (ix1 t)) ea eb

end Cert.PreDecode

end
-- ==== Proof.lean ====
/-
  The kernel and the reference compute the same number over the extended reals, for finite float inputs and labels in
  [0, 32000): minus the sum over the 4096 rows of the log-probability that softmax over the row's 32000 scores gives
  the row's label. The scores are the contractions of a row of x with the rows of w; finite inputs make them real.

  The reference forms each row's maximum, its sum of exponentials relative to the maximum and the label's score
  directly. The kernel visits the 32000 columns in 25 blocks of 1280, per row block of 1024 rows, carrying a running
  maximum, a running sum of exponentials (rescaled by exp (old maximum - new maximum) whenever the maximum moves, from
  the starting values -∞ and 0) and a running picked score (the score of the one column whose number equals the
  label); after the last block these are the row's full statistics, whatever the blocking, and the row's loss
  0 - ((picked - maximum) - log sum) is minus the log-probability. The host then sums the 4096 losses from 0, and the
  reference negates its sum of log-probabilities: one real number on both sides.

  A label outside [0, 32000) is read by the reference's indexing either from the end of the row (negative labels) or
  as not-a-number fill, while the kernel's comparison with the column numbers finds no column: the label range is the
  reference's indexing domain.
-/
import proofs.«414031_j87445534147042_3_alg».proof.Defs
import proofs.«414031_j87445534147042_3_alg».proof.Proof.Gen.Kernel
import proofs.«414031_j87445534147042_3_alg».proof.Proof.Gen.Kernel.Skeleton
import proofs.«414031_j87445534147042_3_alg».proof.Proof.Gen.Kernel.Launch
import proofs.«414031_j87445534147042_3_alg».proof.Proof.Gen.Kernel.Points
import proofs.«414031_j87445534147042_3_alg».proof.Proof.Gen.Kernel.Frame
import proofs.«414031_j87445534147042_3_alg».proof.Proof.Gen.KernelIdeal
import proofs.«414031_j87445534147042_3_alg».proof.Proof.Gen.KernelIdeal.Skeleton
import proofs.«414031_j87445534147042_3_alg».proof.Proof.Gen.KernelIdeal.Launch
import proofs.«414031_j87445534147042_3_alg».proof.Proof.Gen.KernelIdeal.Points
import proofs.«414031_j87445534147042_3_alg».proof.Proof.Gen.KernelIdeal.Frame
import proofs.«414031_j87445534147042_3_alg».proof.Proof.Gen.ReferenceIdeal
import proofs.«414031_j87445534147042_3_alg».proof.Proof.Gen.ReferenceIdeal.Run
import proofs.«414031_j87445534147042_3_alg».proof.Proof.Gen.ReferenceIdeal.Read
import proofs.«414031_j87445534147042_3_alg».proof.Proof.Gen.Pre_finite_inputs
import proofs.«414031_j87445534147042_3_alg».proof.Proof.KernelFinal
import proofs.«414031_j87445534147042_3_alg».proof.Proof.RefValue
import proofs.«414031_j87445534147042_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

open Cert.KernelIdeal.Inv in
/-- Both programs end at minus the summed log-probabilities of the labels. -/
theorem algebraic : Cert.algebraic_KernelIdeal_ReferenceIdeal := by
  intro m ρ m' ρ' hpre hagree
  have hdec := fun c : Dev Cert.KernelIdeal.nD => Cert.PreDecode.of_pre (xarr m c) (warr m c) (larr m c) (hpre c)
  -- the real scores and the labels as column numbers
  let sc : Dev Cert.KernelIdeal.nD → Fin 4096 → Fin 32000 → ℝ := fun c t v =>
    ∑ k : Fin 2048, (xarr m c (ix2 t k)).toReal * (warr m c (ix2 v k)).toReal
  let lab : Dev Cert.KernelIdeal.nD → Fin 4096 → Fin 32000 := fun c t => ⟨(larr m c (ix1 t)).toNat, (hdec c).2.2 t⟩
  have hsc : Scores m sc := fun c t v => by
    show _ = ((∑ k : Fin 2048, (xarr m c (ix2 t k)).toReal * (warr m c (ix2 v k)).toReal : ℝ) : EReal)
    rw [← Cert.Softmax.sum_mul_coe]
    refine Finset.sum_congr rfl fun k _ => ?_
    obtain ⟨a, ha⟩ := (hdec c).1 (ix2 t k)
    obtain ⟨b, hb⟩ := (hdec c).2.1 (ix2 v k)
    rw [ha, hb, EReal.toReal_coe, EReal.toReal_coe]
  have hlab : Labels m lab := fun c t => by
    show larr m c (ix1 t) = BitVec.ofNat 32 (larr m c (ix1 t)).toNat
    rw [BitVec.ofNat_toNat, BitVec.setWidth_eq]
  refine ⟨fun c => Cert.KernelIdeal.Final.total sc lab c, Cert.KernelIdeal.Final.run m ρ sc lab hsc hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact Cert.ReferenceIdeal.RefValue.result_eq _ _ _ (sc c) (lab c) (hsc c) (hlab c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
